-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16384x3 : Shape := ⟨3, ![4, 16384, 3]⟩
abbrev S4x16384x512 : Shape := ⟨3, ![4, 16384, 512]⟩
abbrev S4x16384 : Shape := ⟨2, ![4, 16384]⟩
abbrev S4x512 : Shape := ⟨2, ![4, 512]⟩
abbrev S512 : Shape := ⟨1, ![512]⟩
abbrev S512x512 : Shape := ⟨2, ![512, 512]⟩
abbrev S6x512 : Shape := ⟨2, ![6, 512]⟩
abbrev S_ : Shape := ⟨0, ![]⟩

class Facts : Prop where
  bcast_S_S4x16384x3 : S_.BroadcastsInDim S4x16384x3 (![] : Fin 0 → Fin S4x16384x3.rank)
  reducesTo_S4x16384x3_S_d0_1_2 : S4x16384x3.ReducesTo [0, 1, 2] S_
  h_S_ : 0 < S_.numel
  bcast_S_S4x16384x512 : S_.BroadcastsInDim S4x16384x512 (![] : Fin 0 → Fin S4x16384x512.rank)
  reducesTo_S4x16384x512_S_d0_1_2 : S4x16384x512.ReducesTo [0, 1, 2] S_
  bcast_S_S4x512 : S_.BroadcastsInDim S4x512 (![] : Fin 0 → Fin S4x512.rank)
  reducesTo_S4x512_S_d0_1 : S4x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S6x512 : S_.BroadcastsInDim S6x512 (![] : Fin 0 → Fin S6x512.rank)
  reducesTo_S6x512_S_d0_1 : S6x512.ReducesTo [0, 1] S_

variable [Facts]

def fn_part2 {F : FTy → Type} [FloatOps F] (main_arg8 : FVec F S512 .f32) (main_arg9 : FVec F S512x512 .f32) (main_arg10 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg9
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg5 : FVec F S512x512 .f32) (main_arg6 : FVec F S512 .f32) (main_arg7 : FVec F S6x512 .f32) (main_arg8 : FVec F S512 .f32) (main_arg9 : FVec F S512x512 .f32) (main_arg10 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S6x512 .f32 := Host.absf main_arg7
  let main_cst_10 : FVec F S_ .f32 := constant S_ .f32 0x7F800000#32
  let main_v30 : FVec F S6x512 .f32 := broadcastInDim S6x512 ![] bcast_S_S6x512 main_cst_10
  let main_v31 : IVec S6x512 1 := cmpf .olt main_v29 main_v30
  let main_c_11 : IVec S_ 1 := constantI S_ 1 1#1
  let main_v32 : IVec S_ 1 := (fun x v => Host.reduce IntOp.andi x v reducesTo_S6x512_S_d0_1 h_S_) main_v31 main_c_11
  let main_v33 : IVec S_ 1 := andi main_v28 main_v32
  fn_part2 (F := F) main_arg8 main_arg9 main_arg10 main_v33

def fn {F : FTy → Type} [FloatOps F] (main_arg0 : FVec F S4x16384x3 .f32) (main_arg1 : FVec F S4x16384x512 .f32) (main_arg2 : IVec S4x16384 32) (main_arg3 : FVec F S4x512 .f32) (main_arg4 : FVec F S512 .f32) (main_arg5 : FVec F S512x512 .f32) (main_arg6 : FVec F S512 .f32) (main_arg7 : FVec F S6x512 .f32) (main_arg8 : FVec F S512 .f32) (main_arg9 : FVec F S512x512 .f32) (main_arg10 : FVec F S512 .f32) : IVec S_ 1 :=
  let main_v0 : FVec F S4x16384x3 .f32 := Host.absf main_arg0
  let main_cst : FVec F S_ .f32 := constant S_ .f32 0x7F800000#32
  let main_v1 : FVec F S4x16384x3 .f32 := broadcastInDim S4x16384x3 ![] bcast_S_S4x16384x3 main_cst
  let main_v2 : IVec S4x16384x3 1 := cmpf .olt main_v0 main_v1
  let main_c : IVec S_ 1 := constantI S_ 1 1#1
  let main_v3 : IVec S_ 1 := (fun x v => Host.reduce IntOp.andi x v reducesTo_S4x16384x3_S_d0_1_2 h_S_) main_v2 main_c
  let main_v4 : FVec F S4x16384x512 .f32 := Host.absf main_arg1
  let main_cst_0 : FVec F S_ .f32 := constant S_ .f32 0x7F800000#32
  let main_v5 : FVec F S4x16384x512 .f32 := broadcastInDim S4x16384x512 ![] bcast_S_S4x16384x512 main_cst_0
  let main_v6 : IVec S4x16384x512 1 := cmpf .olt main_v4 main_v5
  let main_c_1 : IVec S_ 1 := constantI S_ 1 1#1
  let main_v7 : IVec S_ 1 := (fun x v => Host.reduce IntOp.andi x v reducesTo_S4x16384x512_S_d0_1_2 h_S_) main_v6 main_c_1
  let main_v8 : IVec S_ 1 := andi main_v3 main_v7
  let main_v9 : FVec F S4x512 .f32 := Host.absf main_arg3
  let main_cst_2 : FVec F S_ .f32 := constant S_ .f32 0x7F800000#32
  let main_v10 : FVec F S4x512 .f32 := broadcastInDim S4x512 ![] bcast_S_S4x512 main_cst_2
  let main_v11 : IVec S4x512 1 := cmpf .olt main_v9 main_v10
  let main_c_3 : IVec S_ 1 := constantI S_ 1 1#1
  let main_v12 : IVec S_ 1 := (fun x v => Host.reduce IntOp.andi x v reducesTo_S4x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_arg9 main_arg10 main_v13 main_v16
-- ==== Kernel.lean ====
abbrev S4x16384x3 : Shape := ⟨3, ![4, 16384, 3]⟩
abbrev S4x16384x512 : Shape := ⟨3, ![4, 16384, 512]⟩
abbrev S4x16384 : Shape := ⟨2, ![4, 16384]⟩
abbrev S4x512 : Shape := ⟨2, ![4, 512]⟩
abbrev S512 : Shape := ⟨1, ![512]⟩
abbrev S512x512 : Shape := ⟨2, ![512, 512]⟩
abbrev S6x512 : Shape := ⟨2, ![6, 512]⟩
abbrev S4 : Shape := ⟨1, ![4]⟩
abbrev S4x1 : Shape := ⟨2, ![4, 1]⟩
abbrev S_ : Shape := ⟨0, ![]⟩
abbrev S65536 : Shape := ⟨1, ![65536]⟩
abbrev S65536x3 : Shape := ⟨2, ![65536, 3]⟩
abbrev S65536x512 : Shape := ⟨2, ![65536, 512]⟩
abbrev S8192 : Shape := ⟨1, ![8192]⟩
abbrev S65536x1 : Shape := ⟨2, ![65536, 1]⟩
abbrev S8192x1 : Shape := ⟨2, ![8192, 1]⟩
abbrev S8192x3 : Shape := ⟨2, ![8192, 3]⟩
abbrev S65536x4 : Shape := ⟨2, ![65536, 4]⟩
abbrev S65536x6 : Shape := ⟨2, ![65536, 6]⟩
abbrev S1x512 : Shape := ⟨2, ![1, 512]⟩
abbrev S1024x4 : Shape := ⟨2, ![1024, 4]⟩
abbrev S1024x6 : Shape := ⟨2, ![1024, 6]⟩
abbrev S1024x512 : Shape := ⟨2, ![1024, 512]⟩

abbrev nBuf : Space → Nat
  | .hbm => 78
  | .vmem => 18
  | .smem => 0
  | _ => 0

abbrev bufTy : (tb : Table) → Fin (tcTables nBuf tb) → BufTy
  | .hbm, ⟨0, _⟩ => ⟨S4x16384x3, .f32⟩
  | .hbm, ⟨1, _⟩ => ⟨S4x16384x512, .f32⟩
  | .hbm, ⟨2, _⟩ => ⟨S4x16384, .i32⟩
  | .hbm, ⟨3, _⟩ => ⟨S4x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S6x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S4, .i32⟩
  | .hbm, ⟨12, _⟩ => ⟨S4x1, .i32⟩
  | .hbm, ⟨13, _⟩ => ⟨S_, .i32⟩
  | .hbm, ⟨14, _⟩ => ⟨S4x1, .i32⟩
  | .hbm, ⟨15, _⟩ => ⟨S4x1, .i32⟩
  | .hbm, ⟨16, _⟩ => ⟨S4x16384, .i32⟩
  | .hbm, ⟨17, _⟩ => ⟨S4x16384, .i32⟩
  | .hbm, ⟨18, _⟩ => ⟨S65536, .i32⟩
  | .hbm, ⟨19, _⟩ => ⟨S65536x3, .f32⟩
  | .hbm, ⟨20, _⟩ => ⟨S65536x512, .f32⟩
  | .hbm, ⟨21, _⟩ => ⟨S_, .f32⟩
  | .hbm, ⟨22, _⟩ => ⟨S65536, .f32⟩
  | .hbm, ⟨23, _⟩ => ⟨S_, .f32⟩
  | .hbm, ⟨24, _⟩ => ⟨S8192, .f32⟩
  | .hbm, ⟨25, _⟩ => ⟨S65536x1, .i32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x3, .f32⟩
  | .hbm, ⟨34, _⟩ => ⟨S65536x1, .i32⟩
  | .hbm, ⟨35, _⟩ => ⟨S8192x3, .f32⟩
  | .hbm, ⟨36, _⟩ => ⟨S8192x3, .f32⟩
  | .hbm, ⟨37, _⟩ => ⟨S8192x3, .f32⟩
  | .hbm, ⟨38, _⟩ => ⟨S_, .i32⟩
  | .hbm, ⟨39, _⟩ => ⟨S65536, .i32⟩
  | .hbm, ⟨40, _⟩ => ⟨S65536, .i1⟩
  | .hbm, ⟨41, _⟩ => ⟨S_, .i32⟩
  | .hbm, ⟨42, _⟩ => ⟨S65536, .i32⟩
  | .hbm, ⟨43, _⟩ => ⟨S65536, .i32⟩
  | .hbm, ⟨44, _⟩ => ⟨S65536, .i32⟩
  | .hbm, ⟨45, _⟩ => ⟨S65536x1, .i32⟩
  | .hbm, ⟨46, _⟩ => ⟨S65536x3, .f32⟩
  | .hbm, ⟨47, _⟩ => ⟨S65536x3, .f32⟩
  | .hbm, ⟨48, _⟩ => ⟨S65536x3, .f32⟩
  | .hbm, ⟨49, _⟩ => ⟨S_, .f32⟩
  | .hbm, ⟨50, _⟩ => ⟨S65536, .f32⟩
  | .hbm, ⟨51, _⟩ => ⟨S65536x1, .f32⟩
  | .hbm, ⟨52, _⟩ => ⟨S65536x1, .f32⟩
  | .hbm, ⟨53, _⟩ => ⟨S65536x4, .f32⟩
  | .hbm, ⟨54, _⟩ => ⟨S_, .f32⟩
  | .hbm, ⟨55, _⟩ => ⟨S8192x3, .f32⟩
  | .hbm, ⟨56, _⟩ => ⟨S65536x1, .i32⟩
  | .hbm, ⟨57, _⟩ => ⟨S8192x3, .f32⟩
  | .hbm, ⟨58, _⟩ => ⟨S8192x3, .f32⟩
  | .hbm, ⟨59, _⟩ => ⟨S8192x3, .f32⟩
  | .hbm, ⟨60, _⟩ => ⟨S_, .i32⟩
  | .hbm, ⟨61, _⟩ => ⟨S65536, .i32⟩
  | .hbm, ⟨62, _⟩ => ⟨S65536, .i1⟩
  | .hbm, ⟨63, _⟩ => ⟨S_, .i32⟩
  | .hbm, ⟨64, _⟩ => ⟨S65536, .i32⟩
  | .hbm, ⟨65, _⟩ => ⟨S65536, .i32⟩
  | .hbm, ⟨66, _⟩ => ⟨S65536, .i32⟩
  | .hbm, ⟨67, _⟩ => ⟨S65536x1, .i32⟩
  | .hbm, ⟨68, _⟩ => ⟨S65536x3, .f32⟩
  | .hbm, ⟨69, _⟩ => ⟨S65536x6, .f32⟩
  | .hbm, ⟨70, _⟩ => ⟨S1x512, .f32⟩
  | .hbm, ⟨71, _⟩ => ⟨S1x512, .f32⟩
  | .hbm, ⟨72, _⟩ => ⟨S1x512, .f32⟩
  | .hbm, ⟨73, _⟩ => ⟨S1x512, .f32⟩
  | .hbm, ⟨74, _⟩ => ⟨S65536x512, .f32⟩
  | .hbm, ⟨75, _⟩ => ⟨S65536x512, .f32⟩
  | .hbm, ⟨76, _⟩ => ⟨S4x16384x512, .f32⟩
  | .hbm, ⟨77, _⟩ => ⟨S4x16384x512, .f32⟩
  | .local _ .vmem, ⟨0, _⟩ => ⟨S1024x4, .f32⟩
  | .local _ .vmem, ⟨1, _⟩ => ⟨S1024x4, .f32⟩
  | .local _ .vmem, ⟨2, _⟩ => ⟨S1024x6, .f32⟩
  | .local _ .vmem, ⟨3, _⟩ => ⟨S1024x6, .f32⟩
  | .local _ .vmem, ⟨4, _⟩ => ⟨S1024x512, .f32⟩
  | .local _ .vmem, ⟨5, _⟩ => ⟨S1024x512, .f32⟩
  | .local _ .vmem, ⟨6, _⟩ => ⟨S4x512, .f32⟩
  | .local _ .vmem, ⟨7, _⟩ => ⟨S1x512, .f32⟩
  | .local _ .vmem, ⟨8, _⟩ => ⟨S512x512, .f32⟩
  | .local _ .vmem, ⟨9, _⟩ => ⟨S1x512, .f32⟩
  | .local _ .vmem, ⟨10, _⟩ => ⟨S6x512, .f32⟩
  | .local _ .vmem, ⟨11, _⟩ => ⟨S1x512, .f32⟩
  | .local _ .vmem, ⟨12, _⟩ => ⟨S512x512, .f32⟩
  | .local _ .vmem, ⟨13, _⟩ => ⟨S1x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | _, _ => ⟨S4x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call1_v0 : Ref sig .tc := ⟨.hbm, 48, rfl⟩
abbrev main_call1_cst : Ref sig .tc := ⟨.hbm, 49, rfl⟩
abbrev main_call1_v1 : Ref sig .tc := ⟨.hbm, 50, rfl⟩
abbrev main_call1_v2 : Ref sig .tc := ⟨.hbm, 51, rfl⟩
abbrev main_v28 : Ref sig .tc := ⟨.hbm, 52, rfl⟩
abbrev main_v29 : Ref sig .tc := ⟨.hbm, 53, rfl⟩
abbrev main_cst_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_6 : Ref sig .tc := ⟨.hbm, 60, rfl⟩
abbrev main_v35 : Ref sig .tc := ⟨.hbm, 61, rfl⟩
abbrev main_v36 : Ref sig .tc := ⟨.hbm, 62, rfl⟩
abbrev main_c_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47_0 : Ref sig .tc := ⟨.hbm, 74, rfl⟩
abbrev main_v47_1 : Ref sig .tc := ⟨.hbm, 75, rfl⟩
abbrev main_v48 : Ref sig .tc := ⟨.hbm, 76, rfl⟩
abbrev main_v49 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S4_S4x1_0 : S4.BroadcastsInDim S4x1 (![0] : Fin 1 → Fin S4x1.rank)
  bcast_S_S4x1 : S_.BroadcastsInDim S4x1 (![] : Fin 0 → Fin S4x1.rank)
  bcast_S4x1_S4x16384_0_1 : S4x1.BroadcastsInDim S4x16384 (![0, 1] : Fin 2 → Fin S4x16384.rank)
  shapeCasts_S4x16384_S65536 : S4x16384.ShapeCasts S65536
  shapeCasts_S4x16384x3_S65536x3 : S4x16384x3.ShapeCasts S65536x3
  shapeCasts_S4x16384x512_S65536x512 : S4x16384x512.ShapeCasts S65536x512
  bcast_S_S65536 : S_.BroadcastsInDim S65536 (![] : Fin 0 → Fin S65536.rank)
  bcast_S_S8192 : S_.BroadcastsInDim S8192 (![] : Fin 0 → Fin S8192.rank)
  bcast_S65536_S65536x1_0 : S65536.BroadcastsInDim S65536x1 (![0] : Fin 1 → Fin S65536x1.rank)
  bcast_S8192_S8192x1_0 : S8192.BroadcastsInDim S8192x1 (![0] : Fin 1 → Fin S8192x1.rank)
  bcast_S_S8192x3 : S_.BroadcastsInDim S8192x3 (![] : Fin 0 → Fin S8192x3.rank)
  bcast_S8192x1_S8192x3_0_1 : S8192x1.BroadcastsInDim S8192x3 (![0, 1] : Fin 2 → Fin S8192x3.rank)
  reducesTo_S65536x3_S65536_d1 : S65536x3.ReducesTo [1] S65536
  h_S_ : 0 < S_.numel
  concatenates_S65536x3_S65536x1_S65536x4_d1 : Shape.Concatenates [S65536x3, S65536x1] S65536x4 1
  concatenates_S65536x3_S65536x3_S65536x6_d1 : Shape.Concatenates [S65536x3, S65536x3] S65536x6 1
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x4_S1024x4_0_0 : ∀ a, (![0, 0] : Fin 2 → Nat) a + S1024x4.size a ≤ S1024x4.size a
  h_S1024x4 : 0 < S1024x4.numel
  shapeCasts_S1024x4_S1024x4 : S1024x4.ShapeCasts S1024x4
  bitsLt_bf16_f32 : FTy.bits .bf16 < FTy.bits .f32
  inb_S4x512_S4x512_0_0 : ∀ a, (![0, 0] : Fin 2 → Nat) a + S4x512.size a ≤ S4x512.size a
  h_S4x512 : 0 < S4x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x512_S512x512_0_0 : ∀ a, (![0, 0] : Fin 2 → Nat) a + S512x512.size a ≤ S512x512.size a
  h_S512x512 : 0 < S512x512.numel
  inb_S1024x6_S1024x6_0_0 : ∀ a, (![0, 0] : Fin 2 → Nat) a + S1024x6.size a ≤ S1024x6.size a
  h_S1024x6 : 0 < S1024x6.numel
  shapeCasts_S1024x6_S1024x6 : S1024x6.ShapeCasts S1024x6
  inb_S6x512_S6x512_0_0 : ∀ a, (![0, 0] : Fin 2 → Nat) a + S6x512.size a ≤ S6x512.size a
  h_S6x512 : 0 < S6x512.numel
  shapeCasts_S65536x512_S4x16384x512 : S65536x512.ShapeCasts S4x16384x512
  scatter_S8192_S65536x1_S65536_n_0_0_1_wf : ScatterDims.WF S8192 S65536x1 S65536 [] [0] [0] 1
  scatter_S8192x3_S65536x1_S65536x3_1_0_0_1_wf : ScatterDims.WF S8192x3 S65536x1 S65536x3 [1] [0] [0] 1
  gather_S8192x3_S65536x1_S65536x3_1_0_n_n_0_1_13_wf : GatherDims.WF S8192x3 S65536x1 S65536x3 [1] [0] [] [0] [] 1 ![1, 3]
  dot_S1024x4_S4x512_S1024x512_1_0_0_1_n_n_wf : DotDims.WF S1024x4 S4x512 S1024x512 [1] [0] [0] [1] [] []
  dot_S1024x512_S512x512_S1024x512_1_0_0_1_n_n_wf : DotDims.WF S1024x512 S512x512 S1024x512 [1] [0] [0] [1] [] []
  dot_S1024x6_S6x512_S1024x512_1_0_0_1_n_n_wf : DotDims.WF S1024x6 S6x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4.size a ≤ S65536x4.size a
  hwx0_0 : ∀ i : grid0.Coords, EltTy.bits .f32 = 32 ∨ (Rect.block (s := S65536x4) S1024x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x6.size a ≤ S65536x6.size a
  hwx0_1 : ∀ i : grid0.Coords, EltTy.bits .f32 = 32 ∨ (Rect.block (s := S65536x6) S1024x6.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S65536x512.size a
  hwx0_2 : ∀ i : grid0.Coords, EltTy.bits .f32 = 32 ∨ (Rect.block (s := S65536x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x512.size a ≤ S4x512.size a
  hwx0_3 : ∀ i : grid0.Coords, EltTy.bits .f32 = 32 ∨ (Rect.block (s := S4x512) S4x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S6x512.size a ≤ S6x512.size a
  hwx0_7 : ∀ i : grid0.Coords, EltTy.bits .f32 = 32 ∨ (Rect.block (s := S6x512) S6x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .f32 = 32 ∨ (Rect.block (s := S512x512) S512x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x512.size a ≤ S65536x512.size a
  hwx0_11 : ∀ i : grid0.Coords, EltTy.bits .f32 = 32 ∨ (Rect.block (s := S65536x512) S1024x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x512.size a ≤ S65536x512.size a
  hwx0_12 : ∀ i : grid0.Coords, EltTy.bits .f32 = 32 ∨ (Rect.block (s := S65536x512) S1024x512.size (cc0_transform_12 i) (hinb0_12 i)).WholeWords (EltTy.packing .f32)

variable [Facts₀]

def scatter_S8192_S65536x1_S65536_n_0_0_1 : ScatterDims S8192 S65536x1 S65536 where
  updateWindowDims := []
  insertedWindowDims := [0]
  scatterDimsToOperandDims := [0]
  indexVectorDim := 1
  wf := scatter_S8192_S65536x1_S65536_n_0_0_1_wf
def scatter_S8192x3_S65536x1_S65536x3_1_0_0_1 : ScatterDims S8192x3 S65536x1 S65536x3 where
  updateWindowDims := [1]
  insertedWindowDims := [0]
  scatterDimsToOperandDims := [0]
  indexVectorDim := 1
  wf := scatter_S8192x3_S65536x1_S65536x3_1_0_0_1_wf
def gather_S8192x3_S65536x1_S65536x3_1_0_n_n_0_1_13 : GatherDims S8192x3 S65536x1 S65536x3 where
  offsetDims := [1]
  collapsedSliceDims := [0]
  operandBatchingDims := []
  startIndicesBatchingDims := []
  startIndexMap := [0]
  indexVectorDim := 1
  sliceSizes := ![1, 3]
  wf := gather_S8192x3_S65536x1_S65536x3_1_0_n_n_0_1_13_wf
def dot_S1024x4_S4x512_S1024x512_1_0_0_1_n_n : DotDims S1024x4 S4x512 S1024x512 where
  lhsContracting := [1]
  rhsContracting := [0]
  lhsNonContracting := [0]
  rhsNonContracting := [1]
  lhsBatch := []
  rhsBatch := []
  wf := dot_S1024x4_S4x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x6_S6x512_S1024x512_1_0_0_1_n_n : DotDims S1024x6 S6x512 S1024x512 where
  lhsContracting := [1]
  rhsContracting := [0]
  lhsNonContracting := [0]
  rhsNonContracting := [1]
  lhsBatch := []
  rhsBatch := []
  wf := dot_S1024x6_S6x512_S1024x512_1_0_0_1_n_n_wf

abbrev win0_0 : Pipeline.Window sig grid0 :=
  Pipeline.Window.ofSpec (Memref.whole main_v29) S1024x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S1024x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S6x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v45) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v46) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v47_0) S1024x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v47_1) S1024x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4x16384x3 : Shape := ⟨3, ![4, 16384, 3]⟩
abbrev S4x16384x512 : Shape := ⟨3, ![4, 16384, 512]⟩
abbrev S4x16384 : Shape := ⟨2, ![4, 16384]⟩
abbrev S4x512 : Shape := ⟨2, ![4, 512]⟩
abbrev S512 : Shape := ⟨1, ![512]⟩
abbrev S512x512 : Shape := ⟨2, ![512, 512]⟩
abbrev S6x512 : Shape := ⟨2, ![6, 512]⟩
abbrev S4 : Shape := ⟨1, ![4]⟩
abbrev S4x1 : Shape := ⟨2, ![4, 1]⟩
abbrev S_ : Shape := ⟨0, ![]⟩
abbrev S65536 : Shape := ⟨1, ![65536]⟩
abbrev S65536x3 : Shape := ⟨2, ![65536, 3]⟩
abbrev S65536x512 : Shape := ⟨2, ![65536, 512]⟩
abbrev S8192 : Shape := ⟨1, ![8192]⟩
abbrev S65536x1 : Shape := ⟨2, ![65536, 1]⟩
abbrev S8192x1 : Shape := ⟨2, ![8192, 1]⟩
abbrev S8192x3 : Shape := ⟨2, ![8192, 3]⟩
abbrev S65536x4 : Shape := ⟨2, ![65536, 4]⟩
abbrev S1x512 : Shape := ⟨2, ![1, 512]⟩
abbrev S65536x6 : Shape := ⟨2, ![65536, 6]⟩

abbrev nBuf : Space → Nat
  | .hbm => 96
  | .vmem => 0
  | .smem => 0
  | _ => 0

abbrev bufTy : (tb : Table) → Fin (tcTables nBuf tb) → BufTy
  | .hbm, ⟨0, _⟩ => ⟨S4x16384x3, .f32⟩
  | .hbm, ⟨1, _⟩ => ⟨S4x16384x512, .f32⟩
  | .hbm, ⟨2, _⟩ => ⟨S4x16384, .i32⟩
  | .hbm, ⟨3, _⟩ => ⟨S4x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S6x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S4, .i32⟩
  | .hbm, ⟨12, _⟩ => ⟨S4x1, .i32⟩
  | .hbm, ⟨13, _⟩ => ⟨S_, .i32⟩
  | .hbm, ⟨14, _⟩ => ⟨S4x1, .i32⟩
  | .hbm, ⟨15, _⟩ => ⟨S4x1, .i32⟩
  | .hbm, ⟨16, _⟩ => ⟨S4x16384, .i32⟩
  | .hbm, ⟨17, _⟩ => ⟨S4x16384, .i32⟩
  | .hbm, ⟨18, _⟩ => ⟨S65536, .i32⟩
  | .hbm, ⟨19, _⟩ => ⟨S65536x3, .f32⟩
  | .hbm, ⟨20, _⟩ => ⟨S65536x512, .f32⟩
  | .hbm, ⟨21, _⟩ => ⟨S_, .f32⟩
  | .hbm, ⟨22, _⟩ => ⟨S65536, .f32⟩
  | .hbm, ⟨23, _⟩ => ⟨S_, .f32⟩
  | .hbm, ⟨24, _⟩ => ⟨S8192, .f32⟩
  | .hbm, ⟨25, _⟩ => ⟨S65536x1, .i32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x3, .f32⟩
  | .hbm, ⟨34, _⟩ => ⟨S65536x1, .i32⟩
  | .hbm, ⟨35, _⟩ => ⟨S8192x3, .f32⟩
  | .hbm, ⟨36, _⟩ => ⟨S8192x3, .f32⟩
  | .hbm, ⟨37, _⟩ => ⟨S8192x3, .f32⟩
  | .hbm, ⟨38, _⟩ => ⟨S_, .i32⟩
  | .hbm, ⟨39, _⟩ => ⟨S65536, .i32⟩
  | .hbm, ⟨40, _⟩ => ⟨S65536, .i1⟩
  | .hbm, ⟨41, _⟩ => ⟨S_, .i32⟩
  | .hbm, ⟨42, _⟩ => ⟨S65536, .i32⟩
  | .hbm, ⟨43, _⟩ => ⟨S65536, .i32⟩
  | .hbm, ⟨44, _⟩ => ⟨S65536, .i32⟩
  | .hbm, ⟨45, _⟩ => ⟨S65536x1, .i32⟩
  | .hbm, ⟨46, _⟩ => ⟨S65536x3, .f32⟩
  | .hbm, ⟨47, _⟩ => ⟨S65536x3, .f32⟩
  | .hbm, ⟨48, _⟩ => ⟨S65536x3, .f32⟩
  | .hbm, ⟨49, _⟩ => ⟨S_, .f32⟩
  | .hbm, ⟨50, _⟩ => ⟨S65536, .f32⟩
  | .hbm, ⟨51, _⟩ => ⟨S65536x1, .f32⟩
  | .hbm, ⟨52, _⟩ => ⟨S65536x1, .f32⟩
  | .hbm, ⟨53, _⟩ => ⟨S65536x4, .f32⟩
  | .hbm, ⟨54, _⟩ => ⟨S65536x512, .f32⟩
  | .hbm, ⟨55, _⟩ => ⟨S1x512, .f32⟩
  | .hbm, ⟨56, _⟩ => ⟨S65536x512, .f32⟩
  | .hbm, ⟨57, _⟩ => ⟨S65536x512, .f32⟩
  | .hbm, ⟨58, _⟩ => ⟨S_, .f32⟩
  | .hbm, ⟨59, _⟩ => ⟨S65536x512, .f32⟩
  | .hbm, ⟨60, _⟩ => ⟨S65536x512, .f32⟩
  | .hbm, ⟨61, _⟩ => ⟨S65536x512, .f32⟩
  | .hbm, ⟨62, _⟩ => ⟨S1x512, .f32⟩
  | .hbm, ⟨63, _⟩ => ⟨S65536x512, .f32⟩
  | .hbm, ⟨64, _⟩ => ⟨S65536x512, .f32⟩
  | .hbm, ⟨65, _⟩ => ⟨S65536x512, .f32⟩
  | .hbm, ⟨66, _⟩ => ⟨S_, .f32⟩
  | .hbm, ⟨67, _⟩ => ⟨S8192x3, .f32⟩
  | .hbm, ⟨68, _⟩ => ⟨S65536x1, .i32⟩
  | .hbm, ⟨69, _⟩ => ⟨S8192x3, .f32⟩
  | .hbm, ⟨70, _⟩ => ⟨S8192x3, .f32⟩
  | .hbm, ⟨71, _⟩ => ⟨S8192x3, .f32⟩
  | .hbm, ⟨72, _⟩ => ⟨S_, .i32⟩
  | .hbm, ⟨73, _⟩ => ⟨S65536, .i32⟩
  | .hbm, ⟨74, _⟩ => ⟨S65536, .i1⟩
  | .hbm, ⟨75, _⟩ => ⟨S_, .i32⟩
  | .hbm, ⟨76, _⟩ => ⟨S65536, .i32⟩
  | .hbm, ⟨77, _⟩ => ⟨S65536, .i32⟩
  | .hbm, ⟨78, _⟩ => ⟨S65536, .i32⟩
  | .hbm, ⟨79, _⟩ => ⟨S65536x1, .i32⟩
  | .hbm, ⟨80, _⟩ => ⟨S65536x3, .f32⟩
  | .hbm, ⟨81, _⟩ => ⟨S65536x6, .f32⟩
  | .hbm, ⟨82, _⟩ => ⟨S65536x512, .f32⟩
  | .hbm, ⟨83, _⟩ => ⟨S1x512, .f32⟩
  | .hbm, ⟨84, _⟩ => ⟨S65536x512, .f32⟩
  | .hbm, ⟨85, _⟩ => ⟨S65536x512, .f32⟩
  | .hbm, ⟨86, _⟩ => ⟨S_, .f32⟩
  | .hbm, ⟨87, _⟩ => ⟨S65536x512, .f32⟩
  | .hbm, ⟨88, _⟩ => ⟨S65536x512, .f32⟩
  | .hbm, ⟨89, _⟩ => ⟨S65536x512, .f32⟩
  | .hbm, ⟨90, _⟩ => ⟨S1x512, .f32⟩
  | .hbm, ⟨91, _⟩ => ⟨S65536x512, .f32⟩
  | .hbm, ⟨92, _⟩ => ⟨S65536x512, .f32⟩
  | .hbm, ⟨93, _⟩ => ⟨S65536x512, .f32⟩
  | .hbm, ⟨94, _⟩ => ⟨S4x16384x512, .f32⟩
  | .hbm, ⟨95, _⟩ => ⟨S4x16384x512, .f32⟩
  | _, _ => ⟨S4x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call1_v0 : Ref sig .tc := ⟨.hbm, 48, rfl⟩
abbrev main_call1_cst : Ref sig .tc := ⟨.hbm, 49, rfl⟩
abbrev main_call1_v1 : Ref sig .tc := ⟨.hbm, 50, rfl⟩
abbrev main_call1_v2 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call2_cst : Ref sig .tc := ⟨.hbm, 58, rfl⟩
abbrev main_call2_v0 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_5 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_6 : Ref sig .tc := ⟨.hbm, 72, rfl⟩
abbrev main_v45 : Ref sig .tc := ⟨.hbm, 73, rfl⟩
abbrev main_v46 : Ref sig .tc := ⟨.hbm, 74, rfl⟩
abbrev main_c_7 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call3_cst : Ref sig .tc := ⟨.hbm, 86, rfl⟩
abbrev main_call3_v0 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩

abbrev nD : Nat := 1
abbrev τ : Topo := Topo.v7x

variable {F : FTy → Type} [FloatOps F]

class Facts₀ : Prop where
  bcast_S4_S4x1_0 : S4.BroadcastsInDim S4x1 (![0] : Fin 1 → Fin S4x1.rank)
  bcast_S_S4x1 : S_.BroadcastsInDim S4x1 (![] : Fin 0 → Fin S4x1.rank)
  bcast_S4x1_S4x16384_0_1 : S4x1.BroadcastsInDim S4x16384 (![0, 1] : Fin 2 → Fin S4x16384.rank)
  shapeCasts_S4x16384_S65536 : S4x16384.ShapeCasts S65536
  shapeCasts_S4x16384x3_S65536x3 : S4x16384x3.ShapeCasts S65536x3
  shapeCasts_S4x16384x512_S65536x512 : S4x16384x512.ShapeCasts S65536x512
  bcast_S_S65536 : S_.BroadcastsInDim S65536 (![] : Fin 0 → Fin S65536.rank)
  bcast_S_S8192 : S_.BroadcastsInDim S8192 (![] : Fin 0 → Fin S8192.rank)
  bcast_S65536_S65536x1_0 : S65536.BroadcastsInDim S65536x1 (![0] : Fin 1 → Fin S65536x1.rank)
  bcast_S8192_S8192x1_0 : S8192.BroadcastsInDim S8192x1 (![0] : Fin 1 → Fin S8192x1.rank)
  bcast_S_S8192x3 : S_.BroadcastsInDim S8192x3 (![] : Fin 0 → Fin S8192x3.rank)
  bcast_S8192x1_S8192x3_0_1 : S8192x1.BroadcastsInDim S8192x3 (![0, 1] : Fin 2 → Fin S8192x3.rank)
  reducesTo_S65536x3_S65536_d1 : S65536x3.ReducesTo [1] S65536
  h_S_ : 0 < S_.numel
  concatenates_S65536x3_S65536x1_S65536x4_d1 : Shape.Concatenates [S65536x3, S65536x1] S65536x4 1
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  concatenates_S65536x3_S65536x3_S65536x6_d1 : Shape.Concatenates [S65536x3, S65536x3] S65536x6 1
  shapeCasts_S65536x512_S4x16384x512 : S65536x512.ShapeCasts S4x16384x512
  scatter_S8192_S65536x1_S65536_n_0_0_1_wf : ScatterDims.WF S8192 S65536x1 S65536 [] [0] [0] 1
  scatter_S8192x3_S65536x1_S65536x3_1_0_0_1_wf : ScatterDims.WF S8192x3 S65536x1 S65536x3 [1] [0] [0] 1
  gather_S8192x3_S65536x1_S65536x3_1_0_n_n_0_1_13_wf : GatherDims.WF S8192x3 S65536x1 S65536x3 [1] [0] [] [0] [] 1 ![1, 3]
  dot_S65536x4_S4x512_S65536x512_1_0_0_1_n_n_wf : DotDims.WF S65536x4 S4x512 S65536x512 [1] [0] [0] [1] [] []
  dot_S65536x512_S512x512_S65536x512_1_0_0_1_n_n_wf : DotDims.WF S65536x512 S512x512 S65536x512 [1] [0] [0] [1] [] []
  dot_S65536x6_S6x512_S65536x512_1_0_0_1_n_n_wf : DotDims.WF S65536x6 S6x512 S65536x512 [1] [0] [0] [1] [] []

variable [Facts₀]

def scatter_S8192_S65536x1_S65536_n_0_0_1 : ScatterDims S8192 S65536x1 S65536 where
  updateWindowDims := []
  insertedWindowDims := [0]
  scatterDimsToOperandDims := [0]
  indexVectorDim := 1
  wf := scatter_S8192_S65536x1_S65536_n_0_0_1_wf
def scatter_S8192x3_S65536x1_S65536x3_1_0_0_1 : ScatterDims S8192x3 S65536x1 S65536x3 where
  updateWindowDims := [1]
  insertedWindowDims := [0]
  scatterDimsToOperandDims := [0]
  indexVectorDim := 1
  wf := scatter_S8192x3_S65536x1_S65536x3_1_0_0_1_wf
def gather_S8192x3_S65536x1_S65536x3_1_0_n_n_0_1_13 : GatherDims S8192x3 S65536x1 S65536x3 where
  offsetDims := [1]
  collapsedSliceDims := [0]
  operandBatchingDims := []
  startIndicesBatchingDims := []
  startIndexMap := [0]
  indexVectorDim := 1
  sliceSizes := ![1, 3]
  wf := gather_S8192x3_S65536x1_S65536x3_1_0_n_n_0_1_13_wf
def dot_S65536x4_S4x512_S65536x512_1_0_0_1_n_n : DotDims S65536x4 S4x512 S65536x512 where
  lhsContracting := [1]
  rhsContracting := [0]
  lhsNonContracting := [0]
  rhsNonContracting := [1]
  lhsBatch := []
  rhsBatch := []
  wf := dot_S65536x4_S4x512_S65536x512_1_0_0_1_n_n_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S65536x6_S6x512_S65536x512_1_0_0_1_n_n : DotDims S65536x6 S6x512 S65536x512 where
  lhsContracting := [1]
  rhsContracting := [0]
  lhsNonContracting := [0]
  rhsNonContracting := [1]
  lhsBatch := []
  rhsBatch := []
  wf := dot_S65536x6_S6x512_S65536x512_1_0_0_1_n_n_wf

class Facts : Prop extends Facts₀ where

variable [Facts]
-- ==== Proof.ResidualMlp.lean ====
/-
  The arithmetic of the claim, one entry at a time.

  A row `x` of `K` features goes through a two-layer perceptron and is added to a residual: with a
  `K × 512` weight `w` and bias `b`, a `512 × 512` weight `w'` and bias `b'`, and the residual entry `f`,
  entry `j` of the result is

      f + ( Σ_l  max (Σ_k x_k · w_{k,l} + b_l, 0) · w'_{l,j}  +  b'_j )

  over the extended reals. The kernel computes this once per 1024-row block with `K = 4` (the local
  coordinates and their norm) and once with `K = 6` (the cluster's mean offset and the local coordinates);
  the reference computes the same two expressions over all 65536 rows at once. Both sides apply the
  operations in this very order and grouping, so the only facts needed to join them are that each of the
  two matrix products, read at an entry, is the plain sum over the contracted axis; nothing is distributed
  or cancelled, and no entry has to be finite.
-/
import Idealize.ShloMosaic.PureOps.Ideal
import Idealize.ShloMosaic.Lib.ValueIdx

noncomputable section

namespace Cert.ResidualMlp

open Idealize.ShloMosaic Idealize.ShloMosaic.ValueIdx

/-- Hidden unit `l` of a row: the rectified affine image `max (Σ_k x_k · w_{k,l} + b_l, 0)`. -/
def hiddenUnit {K : ℕ} (x : Fin K → EReal) (w : Fin K → Fin 512 → EReal) (b : Fin 512 → EReal) (l : Fin 512) : EReal :=
  max ((∑ k : Fin K, x k * w k l) + b l) 0

/-- Entry `j` of the row's result: the residual plus the second affine layer of the hidden units. -/
def entry {K : ℕ} (x : Fin K → EReal) (w : Fin K → Fin 512 → EReal) (b : Fin 512 → EReal)
    (w' : Fin 512 → Fin 512 → EReal) (b' : Fin 512 → EReal) (f : EReal) (j : Fin 512) : EReal :=
  f + ((∑ l : Fin 512, hiddenUnit x w b l * w' l j) + b' j)

/-- The whole `[65536, 512]` result as ONE function of the arrays: row `i 0` of the features `X`, through the
    weights, onto entry `i` of the residual `R`. The biases are plain functions of the column, so that a
    `[512]` array and its `[1, 512]` reshape both fit. -/
def rows (K : ℕ) (X : (⟨2, ![65536, K]⟩ : Shape).Idx → EReal) (W : (⟨2, ![K, 512]⟩ : Shape).Idx → EReal)
    (b : Fin 512 → EReal) (W' : (⟨2, ![512, 512]⟩ : Shape).Idx → EReal) (b' : Fin 512 → EReal)
    (R : (⟨2, ![65536, 512]⟩ : Shape).Idx → EReal) : (⟨2, ![65536, 512]⟩ : Shape).Idx → EReal :=
  fun i => entry (fun k => X (ix2 (i 0) k)) (fun k l => W (ix2 k l)) b (fun l j => W' (ix2 l j)) b' (R i) (i 1)

/-- The same function read at explicit coordinates. -/
theorem rows_apply (K : ℕ) (X : (⟨2, ![65536, K]⟩ : Shape).Idx → EReal) (W : (⟨2, ![K, 512]⟩ : Shape).Idx → EReal)
    (b : Fin 512 → EReal) (W' : (⟨2, ![512, 512]⟩ : Shape).Idx → EReal) (b' : Fin 512 → EReal)
    (R : (⟨2, ![65536, 512]⟩ : Shape).Idx → EReal) (r : Fin 65536) (j : Fin 512) :
    rows K X W b W' b' R (ix2 r j)
      = entry (fun k => X (ix2 r k)) (fun k l => W (ix2 k l)) b (fun l j => W' (ix2 l j)) b' (R (ix2 r j)) j := rfl

end Cert.ResidualMlp

end
-- ==== Proof.KernelRow.lean ====
/-
  The kernel's arithmetic on one 1024-row block, read at an entry.

  The body loads the block's rows of the two feature arrays (four and six columns), the residual block, and the
  four weights and biases whole; it narrows the operands of each product to bf16 — the identity on the extended
  reals — multiplies into a zero accumulator, adds the bias row broadcast over the block, rectifies against zero,
  multiplies by the second weight, adds the second bias row and finally the residual block, and stores the result
  over the whole output block. Read at entry `(p, q)` each product into a zero accumulator is the plain sum over its
  contracted axis, a `[1, 512]` bias broadcast over the rows is its entry `(0, q)`, and a cast to the same shape
  is the identity; so entry `(p, q)` of each output block is `ResidualMlp.entry` of row `p` of the feature block.
-/
import proofs.«117727_j74586402062456_1_alg».proof.Proof.Gen.KernelIdeal.Frame
import proofs.«117727_j74586402062456_1_alg».proof.Proof.ResidualMlp
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Row

open Cert.KernelIdeal Cert.KernelIdeal.Gen Idealize.ShloMosaic Idealize.ShloMosaic.ValueIdx Cert.ResidualMlp

/-! ## The three products at an entry

For each product the operand indices at output entry `i` and contraction index `q` are `(i 0, q)` on the left and
`(q, i 1)` on the right; the one-axis contraction index is re-indexed by its coordinate. -/

/-! ### The 1024×4 by 4×512 product -/

theorem lhs_inFour_0 (i : S1024x512.Idx) (q : dot_S1024x4_S4x512_S1024x512_1_0_0_1_n_n.contr.Idx) :
    (dot_S1024x4_S4x512_S1024x512_1_0_0_1_n_n.lhsIdx i q 0).val = (i 0).val := by
  unfold DotDims.lhsIdx
  rw [dif_neg (show ¬(0 : Fin S1024x4.rank) ∈ dot_S1024x4_S4x512_S1024x512_1_0_0_1_n_n.lhsBatch by decide), dif_pos (show (0 : Fin S1024x4.rank) ∈ dot_S1024x4_S4x512_S1024x512_1_0_0_1_n_n.lhsNonContracting by decide)]
  rfl
theorem lhs_inFour_1 (i : S1024x512.Idx) (q : dot_S1024x4_S4x512_S1024x512_1_0_0_1_n_n.contr.Idx) :
    (dot_S1024x4_S4x512_S1024x512_1_0_0_1_n_n.lhsIdx i q 1).val = (q ⟨0, by decide⟩).val :=
  dot_S1024x4_S4x512_S1024x512_1_0_0_1_n_n.lhsIdx_val_of_single rfl i q
theorem rhs_inFour_0 (i : S1024x512.Idx) (q : dot_S1024x4_S4x512_S1024x512_1_0_0_1_n_n.contr.Idx) :
    (dot_S1024x4_S4x512_S1024x512_1_0_0_1_n_n.rhsIdx i q 0).val = (q ⟨0, by decide⟩).val :=
  dot_S1024x4_S4x512_S1024x512_1_0_0_1_n_n.rhsIdx_val_of_single rfl i q
theorem rhs_inFour_1 (i : S1024x512.Idx) (q : dot_S1024x4_S4x512_S1024x512_1_0_0_1_n_n.contr.Idx) :
    (dot_S1024x4_S4x512_S1024x512_1_0_0_1_n_n.rhsIdx i q 1).val = (i 1).val := by
  unfold DotDims.rhsIdx
  rw [dif_neg (show ¬(1 : Fin S4x512.rank) ∈ dot_S1024x4_S4x512_S1024x512_1_0_0_1_n_n.rhsBatch by decide), dif_pos (show (1 : Fin S4x512.rank) ∈ dot_S1024x4_S4x512_S1024x512_1_0_0_1_n_n.rhsNonContracting by decide)]
  rfl

/-- Into a zero accumulator, entry `(p, q)` of the product is `Σ_k a_{p,k} · b_{k,q}`. -/
theorem inFour_apply (a : FVec Ideal S1024x4 .bf16) (b : FVec Ideal S4x512 .bf16) (p : Fin 1024) (q : Fin 512) :
    matmul (F := Ideal) dot_S1024x4_S4x512_S1024x512_1_0_0_1_n_n none a b (constant (F := Ideal) S1024x512 .f32 0x00000000#32) (ix2 p q)
      = ∑ k : Fin 4, a (ix2 p k) * b (ix2 k q) := by
  simp only [matmul]
  rw [Ideal.matmul_constant_zero_apply, ← Equiv.sum_comp (contrEquiv1 dot_S1024x4_S4x512_S1024x512_1_0_0_1_n_n 4 rfl rfl).symm]
  refine Finset.sum_congr rfl fun k _ => ?_
  have hk := contrEquiv1_symm_val dot_S1024x4_S4x512_S1024x512_1_0_0_1_n_n 4 rfl rfl k
  have el : dot_S1024x4_S4x512_S1024x512_1_0_0_1_n_n.lhsIdx (ix2 p q) ((contrEquiv1 dot_S1024x4_S4x512_S1024x512_1_0_0_1_n_n 4 rfl rfl).symm k) = ix2 p k := funext fun a => Fin.ext (by
    match a with
    | ⟨0, _⟩ => exact lhs_inFour_0 _ _
    | ⟨1, _⟩ => exact (lhs_inFour_1 _ _).trans hk)
  have er : dot_S1024x4_S4x512_S1024x512_1_0_0_1_n_n.rhsIdx (ix2 p q) ((contrEquiv1 dot_S1024x4_S4x512_S1024x512_1_0_0_1_n_n 4 rfl rfl).symm k) = ix2 k q := funext fun a => Fin.ext (by
    match a with
    | ⟨0, _⟩ => exact (rhs_inFour_0 _ _).trans hk
    | ⟨1, _⟩ => exact rhs_inFour_1 _ _)
  rw [el, er]

/-! ### The 1024×6 by 6×512 product -/

theorem lhs_inSix_0 (i : S1024x512.Idx) (q : dot_S1024x6_S6x512_S1024x512_1_0_0_1_n_n.contr.Idx) :
    (dot_S1024x6_S6x512_S1024x512_1_0_0_1_n_n.lhsIdx i q 0).val = (i 0).val := by
  unfold DotDims.lhsIdx
  rw [dif_neg (show ¬(0 : Fin S1024x6.rank) ∈ dot_S1024x6_S6x512_S1024x512_1_0_0_1_n_n.lhsBatch by decide), dif_pos (show (0 : Fin S1024x6.rank) ∈ dot_S1024x6_S6x512_S1024x512_1_0_0_1_n_n.lhsNonContracting by decide)]
  rfl
theorem lhs_inSix_1 (i : S1024x512.Idx) (q : dot_S1024x6_S6x512_S1024x512_1_0_0_1_n_n.contr.Idx) :
    (dot_S1024x6_S6x512_S1024x512_1_0_0_1_n_n.lhsIdx i q 1).val = (q ⟨0, by decide⟩).val :=
  dot_S1024x6_S6x512_S1024x512_1_0_0_1_n_n.lhsIdx_val_of_single rfl i q
theorem rhs_inSix_0 (i : S1024x512.Idx) (q : dot_S1024x6_S6x512_S1024x512_1_0_0_1_n_n.contr.Idx) :
    (dot_S1024x6_S6x512_S1024x512_1_0_0_1_n_n.rhsIdx i q 0).val = (q ⟨0, by decide⟩).val :=
  dot_S1024x6_S6x512_S1024x512_1_0_0_1_n_n.rhsIdx_val_of_single rfl i q
theorem rhs_inSix_1 (i : S1024x512.Idx) (q : dot_S1024x6_S6x512_S1024x512_1_0_0_1_n_n.contr.Idx) :
    (dot_S1024x6_S6x512_S1024x512_1_0_0_1_n_n.rhsIdx i q 1).val = (i 1).val := by
  unfold DotDims.rhsIdx
  rw [dif_neg (show ¬(1 : Fin S6x512.rank) ∈ dot_S1024x6_S6x512_S1024x512_1_0_0_1_n_n.rhsBatch by decide), dif_pos (show (1 : Fin S6x512.rank) ∈ dot_S1024x6_S6x512_S1024x512_1_0_0_1_n_n.rhsNonContracting by decide)]
  rfl

/-- Into a zero accumulator, entry `(p, q)` of the product is `Σ_k a_{p,k} · b_{k,q}`. -/
theorem inSix_apply (a : FVec Ideal S1024x6 .bf16) (b : FVec Ideal S6x512 .bf16) (p : Fin 1024) (q : Fin 512) :
    matmul (F := Ideal) dot_S1024x6_S6x512_S1024x512_1_0_0_1_n_n none a b (constant (F := Ideal) S1024x512 .f32 0x00000000#32) (ix2 p q)
      = ∑ k : Fin 6, a (ix2 p k) * b (ix2 k q) := by
  simp only [matmul]
  rw [Ideal.matmul_constant_zero_apply, ← Equiv.sum_comp (contrEquiv1 dot_S1024x6_S6x512_S1024x512_1_0_0_1_n_n 6 rfl rfl).symm]
  refine Finset.sum_congr rfl fun k _ => ?_
  have hk := contrEquiv1_symm_val dot_S1024x6_S6x512_S1024x512_1_0_0_1_n_n 6 rfl rfl k
  have el : dot_S1024x6_S6x512_S1024x512_1_0_0_1_n_n.lhsIdx (ix2 p q) ((contrEquiv1 dot_S1024x6_S6x512_S1024x512_1_0_0_1_n_n 6 rfl rfl).symm k) = ix2 p k := funext fun a => Fin.ext (by
    match a with
    | ⟨0, _⟩ => exact lhs_inSix_0 _ _
    | ⟨1, _⟩ => exact (lhs_inSix_1 _ _).trans hk)
  have er : dot_S1024x6_S6x512_S1024x512_1_0_0_1_n_n.rhsIdx (ix2 p q) ((contrEquiv1 dot_S1024x6_S6x512_S1024x512_1_0_0_1_n_n 6 rfl rfl).symm k) = ix2 k q := funext fun a => Fin.ext (by
    match a with
    | ⟨0, _⟩ => exact (rhs_inSix_0 _ _).trans hk
    | ⟨1, _⟩ => exact rhs_inSix_1 _ _)
  rw [el, er]

/-! ### The 1024×512 by 512×512 product -/

theorem lhs_hiddenOut_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_hiddenOut_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_hiddenOut_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_hiddenOut_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- Into a zero accumulator, entry `(p, q)` of the product is `Σ_k a_{p,k} · b_{k,q}`. -/
theorem hiddenOut_apply (a : FVec Ideal S1024x512 .bf16) (b : FVec Ideal S512x512 .bf16) (p : Fin 1024) (q : Fin 512) :
    matmul (F := Ideal) dot_S1024x512_S512x512_S1024x512_1_0_0_1_n_n none a b (constant (F := Ideal) S1024x512 .f32 0x00000000#32) (ix2 p q)
      = ∑ k : Fin 512, a (ix2 p k) * b (ix2 k q) := by
  simp only [matmul]
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p q) ((contrEquiv1 dot_S1024x512_S512x512_S1024x512_1_0_0_1_n_n 512 rfl rfl).symm k) = ix2 p k := funext fun a => Fin.ext (by
    match a with
    | ⟨0, _⟩ => exact lhs_hiddenOut_0 _ _
    | ⟨1, _⟩ => exact (lhs_hiddenOut_1 _ _).trans hk)
  have er : dot_S1024x512_S512x512_S1024x512_1_0_0_1_n_n.rhsIdx (ix2 p q) ((contrEquiv1 dot_S1024x512_S512x512_S1024x512_1_0_0_1_n_n 512 rfl rfl).symm k) = ix2 k q := funext fun a => Fin.ext (by
    match a with
    | ⟨0, _⟩ => exact (rhs_hiddenOut_0 _ _).trans hk
    | ⟨1, _⟩ => exact rhs_hiddenOut_1 _ _)
  rw [el, er]

/-! ## The two output blocks at an entry -/

/-- Every access of the body is through the whole-block rectangle at offsets `(0, 0)`. -/
theorem zeroOffsets : (![0, 0] : Fin 2 → Nat) = fun _ => 0 := funext fun a => by fin_cases a <;> rfl

/-- Entry `(p, q)` of the first output block: the four-feature row `p` of the block through the first perceptron,
    added to the residual's entry. -/
theorem posBlock_apply (x0 : Vec Ideal S1024x4 .f32) (x1 : Vec Ideal S1024x6 .f32) (x2 : Vec Ideal S1024x512 .f32) (x3 : Vec Ideal S4x512 .f32) (x4 : Vec Ideal S1x512 .f32) (x5 : Vec Ideal S512x512 .f32) (x6 : Vec Ideal S1x512 .f32) (x7 : Vec Ideal S6x512 .f32) (x8 : Vec Ideal S1x512 .f32) (x9 : Vec Ideal S512x512 .f32) (x10 : Vec Ideal S1x512 .f32) (p : Fin 1024) (q : Fin 512) :
    out0_11 x0 x1 x2 x3 x4 x5 x6 x7 x8 x9 x10 (ix2 p q)
      = entry (fun k => x0 (ix2 p k)) (fun k l => x3 (ix2 k l)) (fun l => x4 (ix2 (0 : Fin 1) l)) (fun l j => x5 (ix2 l j)) (fun j => x6 (ix2 (0 : Fin 1) j)) (x2 (ix2 p q)) q := by
  unfold out0_11
  rw [View.canon_unit_zero zeroOffsets]
  simp only [View.ld_unit_zero (S := S1024x512) zeroOffsets, View.ld_unit_zero (S := S1024x4) zeroOffsets, View.ld_unit_zero (S := S4x512) zeroOffsets, View.ld_unit_zero (S := S1x512) zeroOffsets, View.ld_unit_zero (S := S512x512) zeroOffsets]
  unfold k0_pay3 k0_pay2
  simp only [shapeCast_self, addf_apply]
  rw [hiddenOut_apply, broadcastTo_1b_ab_apply]
  unfold entry hiddenUnit
  refine congrArg (x2 (ix2 p q) + ·) (congrArg (· + x6 (ix2 (0 : Fin 1) q)) (Finset.sum_congr rfl fun l _ => ?_))
  simp only [truncf_apply, maximumf_apply, addf_apply, broadcast_apply]
  rw [inFour_apply, broadcastTo_1b_ab_apply]
  simp only [truncf_apply, Ideal.ofBits_def, Ideal.ofBits_zero_f32]

/-- Entry `(p, q)` of the second output block: the six-feature row `p` through the second perceptron, added to
    the same residual entry. -/
theorem geoBlock_apply (x0 : Vec Ideal S1024x4 .f32) (x1 : Vec Ideal S1024x6 .f32) (x2 : Vec Ideal S1024x512 .f32) (x3 : Vec Ideal S4x512 .f32) (x4 : Vec Ideal S1x512 .f32) (x5 : Vec Ideal S512x512 .f32) (x6 : Vec Ideal S1x512 .f32) (x7 : Vec Ideal S6x512 .f32) (x8 : Vec Ideal S1x512 .f32) (x9 : Vec Ideal S512x512 .f32) (x10 : Vec Ideal S1x512 .f32) (p : Fin 1024) (q : Fin 512) :
    out0_12 x0 x1 x2 x3 x4 x5 x6 x7 x8 x9 x10 (ix2 p q)
      = entry (fun k => x1 (ix2 p k)) (fun k l => x7 (ix2 k l)) (fun l => x8 (ix2 (0 : Fin 1) l)) (fun l j => x9 (ix2 l j)) (fun j => x10 (ix2 (0 : Fin 1) j)) (x2 (ix2 p q)) q := by
  unfold out0_12
  rw [View.canon_unit_zero zeroOffsets]
  simp only [View.ld_unit_zero (S := S1024x512) zeroOffsets, View.ld_unit_zero (S := S1024x6) zeroOffsets, View.ld_unit_zero (S := S6x512) zeroOffsets, View.ld_unit_zero (S := S1x512) zeroOffsets, View.ld_unit_zero (S := S512x512) zeroOffsets]
  unfold k0_pay1 k0_pay2 k0_pay4
  simp only [shapeCast_self, addf_apply]
  rw [hiddenOut_apply, broadcastTo_1b_ab_apply]
  unfold entry hiddenUnit
  refine congrArg (x2 (ix2 p q) + ·) (congrArg (· + x10 (ix2 (0 : Fin 1) q)) (Finset.sum_congr rfl fun l _ => ?_))
  simp only [truncf_apply, maximumf_apply, addf_apply, broadcast_apply]
  rw [inSix_apply, broadcastTo_1b_ab_apply]
  simp only [truncf_apply, Ideal.ofBits_def, Ideal.ofBits_zero_f32]

end Cert.KernelIdeal.Row

end
-- ==== Proof.KernelArrays.lean ====
/-
  From the kernel's blocks to its two result arrays.

  The grid has 64 points; at point `t` the three row-blocked inputs (the four- and six-column features and the
  residual) and the two outputs are at rows `1024·t … 1024·t + 1023`, and the weights and biases are their whole
  arrays. So entry `(p, q)` of a block is entry `(1024·t + p, q)` of its array, what point `t` writes back to an
  output is block `t` of ONE function of the arrays the region finds (`ResidualMlp.rows`), the 64 blocks tile the
  `[65536, 512]` output, and the output ends holding that function. After the region the program only reshapes
  the two outputs to `[4, 16384, 512]`.
-/
import proofs.«117727_j74586402062456_1_alg».proof.Proof.KernelRow
import Idealize.ShloMosaic.Lib.StableHlo.Run

noncomputable section

namespace Cert.KernelIdeal.Arrays

open Cert.KernelIdeal Cert.KernelIdeal.Gen Cert.KernelIdeal.Row Idealize.ShloMosaic Idealize.ShloMosaic.TcCoe Idealize.SL.Sem Idealize.ShloMosaic.ValueIdx Cert.ResidualMlp
open Idealize.ShloMosaic.Pipeline (Dat)

variable (m : (ℓ : Loc nD τ sig) → Buf (Elt Ideal) ℓ) (ρ : Dev nD → PrngReg)

/-- The printed index maps over the 64 grid points: the three row-blocked inputs and the two outputs sit at block row
    `t`, column block 0; the weights and biases are their whole arrays at every point. -/
theorem blockIndices : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = t.val
    ∧ win0_11.index t (1 : Fin 2) = 0
    ∧ win0_12.index t (0 : Fin 2) = t.val
    ∧ win0_12.index t (1 : Fin 2) = 0 :=
  (by decide +kernel : ∀ t : Fin grid0.N, _)

/-- Row `p` of block `t` is row `1024·t + p` of the array. -/
def rowOf (t : Fin cfg0.N) (p : Fin 1024) : Fin 65536 :=
  ⟨t.val * 1024 + p.val, by have h : t.val < 64 := lt_of_lt_of_eq t.isLt N_0; have := p.isLt; omega⟩

/-! ### Where a block's entry sits in its array -/

theorem emb0 (t : Fin cfg0.N) (p : Fin 1024) (q : Fin 4) :
    ((cfg0.win 0).blk t).view.emb (ix2 p q) = ix2 (rowOf t p) q := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIndices t
  funext a; apply Fin.ext
  match a with
  | ⟨0, _⟩ => show win0_0.index t (0 : Fin 2) * 1024 + 1 * p.val = t.val * 1024 + p.val; rw [e0_0]; omega
  | ⟨1, _⟩ => show win0_0.index t (1 : Fin 2) * 4 + 1 * q.val = q.val; rw [e0_1]; omega

theorem emb1 (t : Fin cfg0.N) (p : Fin 1024) (q : Fin 6) :
    ((cfg0.win 1).blk t).view.emb (ix2 p q) = ix2 (rowOf t p) q := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIndices t
  funext a; apply Fin.ext
  match a with
  | ⟨0, _⟩ => show win0_1.index t (0 : Fin 2) * 1024 + 1 * p.val = t.val * 1024 + p.val; rw [e1_0]; omega
  | ⟨1, _⟩ => show win0_1.index t (1 : Fin 2) * 6 + 1 * q.val = q.val; rw [e1_1]; omega

theorem emb2 (t : Fin cfg0.N) (p : Fin 1024) (q : Fin 512) :
    ((cfg0.win 2).blk t).view.emb (ix2 p q) = ix2 (rowOf t p) q := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIndices t
  funext a; apply Fin.ext
  match a with
  | ⟨0, _⟩ => show win0_2.index t (0 : Fin 2) * 1024 + 1 * p.val = t.val * 1024 + p.val; rw [e2_0]; omega
  | ⟨1, _⟩ => show win0_2.index t (1 : Fin 2) * 512 + 1 * q.val = q.val; rw [e2_1]; omega

theorem emb3 (t : Fin cfg0.N) (p : Fin 4) (q : Fin 512) :
    ((cfg0.win 3).blk t).view.emb (ix2 p q) = ix2 p q := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIndices t
  funext a; apply Fin.ext
  match a with
  | ⟨0, _⟩ => show win0_3.index t (0 : Fin 2) * 4 + 1 * p.val = p.val; rw [e3_0]; omega
  | ⟨1, _⟩ => show win0_3.index t (1 : Fin 2) * 512 + 1 * q.val = q.val; rw [e3_1]; omega

theorem emb4 (t : Fin cfg0.N) (p : Fin 1) (q : Fin 512) :
    ((cfg0.win 4).blk t).view.emb (ix2 p q) = ix2 p q := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIndices t
  funext a; apply Fin.ext
  match a with
  | ⟨0, _⟩ => show win0_4.index t (0 : Fin 2) * 1 + 1 * p.val = p.val; rw [e4_0]; omega
  | ⟨1, _⟩ => show win0_4.index t (1 : Fin 2) * 512 + 1 * q.val = q.val; rw [e4_1]; omega

theorem emb5 (t : Fin cfg0.N) (p : Fin 512) (q : Fin 512) :
    ((cfg0.win 5).blk t).view.emb (ix2 p q) = ix2 p q := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIndices t
  funext a; apply Fin.ext
  match a with
  | ⟨0, _⟩ => show win0_5.index t (0 : Fin 2) * 512 + 1 * p.val = p.val; rw [e5_0]; omega
  | ⟨1, _⟩ => show win0_5.index t (1 : Fin 2) * 512 + 1 * q.val = q.val; rw [e5_1]; omega

theorem emb6 (t : Fin cfg0.N) (p : Fin 1) (q : Fin 512) :
    ((cfg0.win 6).blk t).view.emb (ix2 p q) = ix2 p q := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIndices t
  funext a; apply Fin.ext
  match a with
  | ⟨0, _⟩ => show win0_6.index t (0 : Fin 2) * 1 + 1 * p.val = p.val; rw [e6_0]; omega
  | ⟨1, _⟩ => show win0_6.index t (1 : Fin 2) * 512 + 1 * q.val = q.val; rw [e6_1]; omega

theorem emb7 (t : Fin cfg0.N) (p : Fin 6) (q : Fin 512) :
    ((cfg0.win 7).blk t).view.emb (ix2 p q) = ix2 p q := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIndices t
  funext a; apply Fin.ext
  match a with
  | ⟨0, _⟩ => show win0_7.index t (0 : Fin 2) * 6 + 1 * p.val = p.val; rw [e7_0]; omega
  | ⟨1, _⟩ => show win0_7.index t (1 : Fin 2) * 512 + 1 * q.val = q.val; rw [e7_1]; omega

theorem emb8 (t : Fin cfg0.N) (p : Fin 1) (q : Fin 512) :
    ((cfg0.win 8).blk t).view.emb (ix2 p q) = ix2 p q := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIndices t
  funext a; apply Fin.ext
  match a with
  | ⟨0, _⟩ => show win0_8.index t (0 : Fin 2) * 1 + 1 * p.val = p.val; rw [e8_0]; omega
  | ⟨1, _⟩ => show win0_8.index t (1 : Fin 2) * 512 + 1 * q.val = q.val; rw [e8_1]; omega

theorem emb9 (t : Fin cfg0.N) (p : Fin 512) (q : Fin 512) :
    ((cfg0.win 9).blk t).view.emb (ix2 p q) = ix2 p q := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIndices t
  funext a; apply Fin.ext
  match a with
  | ⟨0, _⟩ => show win0_9.index t (0 : Fin 2) * 512 + 1 * p.val = p.val; rw [e9_0]; omega
  | ⟨1, _⟩ => show win0_9.index t (1 : Fin 2) * 512 + 1 * q.val = q.val; rw [e9_1]; omega

theorem emb10 (t : Fin cfg0.N) (p : Fin 1) (q : Fin 512) :
    ((cfg0.win 10).blk t).view.emb (ix2 p q) = ix2 p q := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIndices t
  funext a; apply Fin.ext
  match a with
  | ⟨0, _⟩ => show win0_10.index t (0 : Fin 2) * 1 + 1 * p.val = p.val; rw [e10_0]; omega
  | ⟨1, _⟩ => show win0_10.index t (1 : Fin 2) * 512 + 1 * q.val = q.val; rw [e10_1]; omega

theorem emb11 (t : Fin cfg0.N) (p : Fin 1024) (q : Fin 512) :
    ((cfg0.win 11).blk t).view.emb (ix2 p q) = ix2 (rowOf t p) q := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIndices t
  funext a; apply Fin.ext
  match a with
  | ⟨0, _⟩ => show win0_11.index t (0 : Fin 2) * 1024 + 1 * p.val = t.val * 1024 + p.val; rw [e11_0]; omega
  | ⟨1, _⟩ => show win0_11.index t (1 : Fin 2) * 512 + 1 * q.val = q.val; rw [e11_1]; omega

theorem emb12 (t : Fin cfg0.N) (p : Fin 1024) (q : Fin 512) :
    ((cfg0.win 12).blk t).view.emb (ix2 p q) = ix2 (rowOf t p) q := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIndices t
  funext a; apply Fin.ext
  match a with
  | ⟨0, _⟩ => show win0_12.index t (0 : Fin 2) * 1024 + 1 * p.val = t.val * 1024 + p.val; rw [e12_0]; omega
  | ⟨1, _⟩ => show win0_12.index t (1 : Fin 2) * 512 + 1 * q.val = q.val; rw [e12_1]; omega

/-! ### Each input block read off the array the region finds -/

theorem read0 (c : Dev nD) (t : Fin cfg0.N) (p : Fin 1024) (q : Fin 4) :
    iblk m c 0 t (ix2 p q) = V m c main_v29 (ix2 (rowOf t p) q) := by
  show V m c main_v29 (((cfg0.win 0).blk t).view.emb (ix2 p q)) = _
  rw [emb0]

theorem read1 (c : Dev nD) (t : Fin cfg0.N) (p : Fin 1024) (q : Fin 6) :
    iblk m c 1 t (ix2 p q) = V m c main_v42 (ix2 (rowOf t p) q) := by
  show V m c main_v42 (((cfg0.win 1).blk t).view.emb (ix2 p q)) = _
  rw [emb1]

theorem read2 (c : Dev nD) (t : Fin cfg0.N) (p : Fin 1024) (q : Fin 512) :
    iblk m c 2 t (ix2 p q) = V m c main_v8 (ix2 (rowOf t p) q) := by
  show V m c main_v8 (((cfg0.win 2).blk t).view.emb (ix2 p q)) = _
  rw [emb2]

theorem read3 (c : Dev nD) (t : Fin cfg0.N) (p : Fin 4) (q : Fin 512) :
    iblk m c 3 t (ix2 p q) = V m c main_arg3 (ix2 p q) := by
  show V m c main_arg3 (((cfg0.win 3).blk t).view.emb (ix2 p q)) = _
  rw [emb3]

theorem read4 (c : Dev nD) (t : Fin cfg0.N) (p : Fin 1) (q : Fin 512) :
    iblk m c 4 t (ix2 p q) = V m c main_v43 (ix2 p q) := by
  show V m c main_v43 (((cfg0.win 4).blk t).view.emb (ix2 p q)) = _
  rw [emb4]

theorem read5 (c : Dev nD) (t : Fin cfg0.N) (p : Fin 512) (q : Fin 512) :
    iblk m c 5 t (ix2 p q) = V m c main_arg5 (ix2 p q) := by
  show V m c main_arg5 (((cfg0.win 5).blk t).view.emb (ix2 p q)) = _
  rw [emb5]

theorem read6 (c : Dev nD) (t : Fin cfg0.N) (p : Fin 1) (q : Fin 512) :
    iblk m c 6 t (ix2 p q) = V m c main_v44 (ix2 p q) := by
  show V m c main_v44 (((cfg0.win 6).blk t).view.emb (ix2 p q)) = _
  rw [emb6]

theorem read7 (c : Dev nD) (t : Fin cfg0.N) (p : Fin 6) (q : Fin 512) :
    iblk m c 7 t (ix2 p q) = V m c main_arg7 (ix2 p q) := by
  show V m c main_arg7 (((cfg0.win 7).blk t).view.emb (ix2 p q)) = _
  rw [emb7]

theorem read8 (c : Dev nD) (t : Fin cfg0.N) (p : Fin 1) (q : Fin 512) :
    iblk m c 8 t (ix2 p q) = V m c main_v45 (ix2 p q) := by
  show V m c main_v45 (((cfg0.win 8).blk t).view.emb (ix2 p q)) = _
  rw [emb8]

theorem read9 (c : Dev nD) (t : Fin cfg0.N) (p : Fin 512) (q : Fin 512) :
    iblk m c 9 t (ix2 p q) = V m c main_arg9 (ix2 p q) := by
  show V m c main_arg9 (((cfg0.win 9).blk t).view.emb (ix2 p q)) = _
  rw [emb9]

theorem read10 (c : Dev nD) (t : Fin cfg0.N) (p : Fin 1) (q : Fin 512) :
    iblk m c 10 t (ix2 p q) = V m c main_v46 (ix2 p q) := by
  show V m c main_v46 (((cfg0.win 10).blk t).view.emb (ix2 p q)) = _
  rw [emb10]

/-! ### What a point writes back is its block of the whole-array function -/

theorem flushed11_eq (c : Dev nD) (t : Fin cfg0.N) :
    (dats m 0 c).flushed 11 t = ((cfg0.win 11).blk t).view.read (Elt Ideal)
      (rows 4 (V m c main_v29) (V m c main_arg3) (fun l => V m c main_v43 (ix2 (0 : Fin 1) l)) (V m c main_arg5) (fun j => V m c main_v44 (ix2 (0 : Fin 1) j)) (V m c main_v8)) := by
  show (cfg0.win 11).cut (grid0.coords t) ((dats m 0 c).after 11 t) = _
  rw [after0_11]
  funext j
  obtain ⟨p, q, rfl⟩ : ∃ (p : Fin 1024) (q : Fin 512), j = ix2 p q := ⟨j 0, j 1, eq_ix2 j⟩
  refine (posBlock_apply (iblk m c 0 t) (iblk m c 1 t) (iblk m c 2 t) (iblk m c 3 t) (iblk m c 4 t) (iblk m c 5 t) (iblk m c 6 t) (iblk m c 7 t) (iblk m c 8 t) (iblk m c 9 t) (iblk m c 10 t) p q).trans ?_
  rw [View.read_apply, emb11]
  simp only [read0, read2, read3, read4, read5, read6]
  rfl

theorem flushed12_eq (c : Dev nD) (t : Fin cfg0.N) :
    (dats m 0 c).flushed 12 t = ((cfg0.win 12).blk t).view.read (Elt Ideal)
      (rows 6 (V m c main_v42) (V m c main_arg7) (fun l => V m c main_v45 (ix2 (0 : Fin 1) l)) (V m c main_arg9) (fun j => V m c main_v46 (ix2 (0 : Fin 1) j)) (V m c main_v8)) := by
  show (cfg0.win 12).cut (grid0.coords t) ((dats m 0 c).after 12 t) = _
  rw [after0_12]
  funext j
  obtain ⟨p, q, rfl⟩ : ∃ (p : Fin 1024) (q : Fin 512), j = ix2 p q := ⟨j 0, j 1, eq_ix2 j⟩
  refine (geoBlock_apply (iblk m c 0 t) (iblk m c 1 t) (iblk m c 2 t) (iblk m c 3 t) (iblk m c 4 t) (iblk m c 5 t) (iblk m c 6 t) (iblk m c 7 t) (iblk m c 8 t) (iblk m c 9 t) (iblk m c 10 t) p q).trans ?_
  rw [View.read_apply, emb12]
  simp only [read1, read2, read7, read8, read9, read10]
  rfl

/-! ### The blocks tile each output array, so it ends holding the whole-array function -/

theorem mem_blk11 (t : Fin cfg0.N) (i : S65536x512.Idx) :
    i ∈ ((cfg0.win 11).blk t).view.set ↔ ∀ a : Fin 2, win0_11.index t a * S1024x512.size a ≤ (i a).val ∧ (i a).val < win0_11.index t a * S1024x512.size a + S1024x512.size a := by
  show i ∈ ((View.whole main_v47_0).slice (win0_11.rect t)).set ↔ _
  rw [View.set_slice_whole, Rect.mem_set_unit]
  exact Iff.rfl

/-- Every entry of the array lies in the block of the point `(row / 1024)`. -/
theorem cover11 (i : S65536x512.Idx) :
    ∃ t : Fin cfg0.N, (cfg0.win 11).flush t = true ∧ i ∈ ((cfg0.win 11).blk t).view.set := by
  have hi0 : (i 0).val < 65536 := (i 0).isLt
  have hi1 : (i 1).val < 512 := (i 1).isLt
  obtain ⟨t, ht⟩ : ∃ t : Fin cfg0.N, t.val = (i 0).val / 1024 :=
    ⟨⟨(i 0).val / 1024, lt_of_lt_of_eq (by omega : (i 0).val / 1024 < 64) N_0.symm⟩, rfl⟩
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIndices t
  refine ⟨t, flush0_11 t, ?_⟩
  rw [mem_blk11]
  intro a
  match a with
  | ⟨0, _⟩ => show win0_11.index t (0 : Fin 2) * 1024 ≤ (i 0).val ∧ (i 0).val < win0_11.index t (0 : Fin 2) * 1024 + 1024; rw [e11_0]; omega
  | ⟨1, _⟩ => show win0_11.index t (1 : Fin 2) * 512 ≤ (i 1).val ∧ (i 1).val < win0_11.index t (1 : Fin 2) * 512 + 512; rw [e11_1]; omega

theorem mem_blk12 (t : Fin cfg0.N) (i : S65536x512.Idx) :
    i ∈ ((cfg0.win 12).blk t).view.set ↔ ∀ a : Fin 2, win0_12.index t a * S1024x512.size a ≤ (i a).val ∧ (i a).val < win0_12.index t a * S1024x512.size a + S1024x512.size a := by
  show i ∈ ((View.whole main_v47_1).slice (win0_12.rect t)).set ↔ _
  rw [View.set_slice_whole, Rect.mem_set_unit]
  exact Iff.rfl

/-- Every entry of the array lies in the block of the point `(row / 1024)`. -/
theorem cover12 (i : S65536x512.Idx) :
    ∃ t : Fin cfg0.N, (cfg0.win 12).flush t = true ∧ i ∈ ((cfg0.win 12).blk t).view.set := by
  have hi0 : (i 0).val < 65536 := (i 0).isLt
  have hi1 : (i 1).val < 512 := (i 1).isLt
  obtain ⟨t, ht⟩ : ∃ t : Fin cfg0.N, t.val = (i 0).val / 1024 :=
    ⟨⟨(i 0).val / 1024, lt_of_lt_of_eq (by omega : (i 0).val / 1024 < 64) N_0.symm⟩, rfl⟩
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := blockIndices t
  refine ⟨t, flush0_12 t, ?_⟩
  rw [mem_blk12]
  intro a
  match a with
  | ⟨0, _⟩ => show win0_12.index t (0 : Fin 2) * 1024 ≤ (i 0).val ∧ (i 0).val < win0_12.index t (0 : Fin 2) * 1024 + 1024; rw [e12_0]; omega
  | ⟨1, _⟩ => show win0_12.index t (1 : Fin 2) * 512 ≤ (i 1).val ∧ (i 1).val < win0_12.index t (1 : Fin 2) * 512 + 512; rw [e12_1]; omega

theorem final11 (c : Dev nD) : (dats m 0 c).arrAt 11 cfg0.N = rows 4 (V m c main_v29) (V m c main_arg3) (fun l => V m c main_v43 (ix2 (0 : Fin 1) l)) (V m c main_arg5) (fun j => V m c main_v44 (ix2 (0 : Fin 1) j)) (V m c main_v8) :=
  (dats m 0 c).arrAt_eq_of_cover 11 _ (fun t _ => flushed11_eq m c t) cover11

theorem final12 (c : Dev nD) : (dats m 0 c).arrAt 12 cfg0.N = rows 6 (V m c main_v42) (V m c main_arg7) (fun l => V m c main_v45 (ix2 (0 : Fin 1) l)) (V m c main_arg9) (fun j => V m c main_v46 (ix2 (0 : Fin 1) j)) (V m c main_v8) :=
  (dats m 0 c).arrAt_eq_of_cover 12 _ (fun t _ => flushed12_eq m c t) cover12

/-! ### The two reshapes after the region -/

theorem tail48 (c : Dev nD) :
    Pipeline.afterTail₀ cfgs (dats m) 0 (V0 m) [hostOps1] c main_v48
      = shapeCast S4x16384x512 (rows 4 (V m c main_v29) (V m c main_arg3) (fun l => V m c main_v43 (ix2 (0 : Fin 1) l)) (V m c main_arg5) (fun j => V m c main_v44 (ix2 (0 : Fin 1) j)) (V m c main_v8)) shapeCasts_S65536x512_S4x16384x512 := by
  unfold Pipeline.afterTail₀
  show StableHlo.after hostOps1 _ (Proc.devRef .tc main_v48) = _
  after_results
  exact congrArg (fun a => shapeCast S4x16384x512 a shapeCasts_S65536x512_S4x16384x512)
    ((Pipeline.withArrays_arr spec0 launch0.win.arr_inj c (V0 m c) (fun w => (dats m 0 c).arrAt w (cfgs 0).N) 11).trans (final11 m c))

theorem tail49 (c : Dev nD) :
    Pipeline.afterTail₀ cfgs (dats m) 0 (V0 m) [hostOps1] c main_v49
      = shapeCast S4x16384x512 (rows 6 (V m c main_v42) (V m c main_arg7) (fun l => V m c main_v45 (ix2 (0 : Fin 1) l)) (V m c main_arg9) (fun j => V m c main_v46 (ix2 (0 : Fin 1) j)) (V m c main_v8)) shapeCasts_S65536x512_S4x16384x512 := by
  unfold Pipeline.afterTail₀
  show StableHlo.after hostOps1 _ (Proc.devRef .tc main_v49) = _
  after_results
  exact congrArg (fun a => shapeCast S4x16384x512 a shapeCasts_S65536x512_S4x16384x512)
    ((Pipeline.withArrays_arr spec0 launch0.win.arr_inj c (V0 m c) (fun w => (dats m 0 c).arrAt w (cfgs 0).N) 12).trans (final12 m c))

/-! ### The kernel's run, its two results named -/

/-- Every weakly fair execution of the idealized kernel terminates with its two results at the reshapes of the two
    whole-array functions of the arrays the region finds, and its arguments unchanged. -/
theorem run : θ_run defs (onTc (τ := τ) (main (F := Ideal))) ⟨m, fun _ => 0, ρ⟩ fun r => ∀ c : Dev nD,
      r.2.mem ((c.tc : Thread nD τ).loc main_v48) = shapeCast S4x16384x512 (rows 4 (V m c main_v29) (V m c main_arg3) (fun l => V m c main_v43 (ix2 (0 : Fin 1) l)) (V m c main_arg5) (fun j => V m c main_v44 (ix2 (0 : Fin 1) j)) (V m c main_v8)) shapeCasts_S65536x512_S4x16384x512
      ∧ r.2.mem ((c.tc : Thread nD τ).loc main_v49) = shapeCast S4x16384x512 (rows 6 (V m c main_v42) (V m c main_arg7) (fun l => V m c main_v45 (ix2 (0 : Fin 1) l)) (V m c main_arg9) (fun j => V m c main_v46 (ix2 (0 : Fin 1) j)) (V m c main_v8)) shapeCasts_S65536x512_S4x16384x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨
      ((h c).2 main_v48 (Pipeline.mem_restRefs_of main_v48 (by decide) (by decide))).trans (tail48 m c),
      ((h c).2 main_v49 (Pipeline.mem_restRefs_of main_v49 (by decide) (by decide))).trans (tail49 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      ((h c).1 9).trans (((dats m 0 c).arrAt_in 9 rfl _).trans ((A_eq m c 9).trans (V_main_arg9 m c))),
      (((h c).2 main_arg10 (Pipeline.mem_restRefs_of main_arg10 (by decide) (by decide))).trans (W_main_arg10 m (dats m) c))⟩) (run_main m ρ)

end Cert.KernelIdeal.Arrays

end
-- ==== Proof.ReferenceRows.lean ====
/-
  The reference's two results before their last reshape, read at an entry.

  On the host the reference multiplies the `[65536, K]` features by the first weight (a contraction over the one
  shared axis), adds the bias broadcast over the rows, takes the maximum with zero, multiplies by the second weight,
  adds the second bias and finally the flattened residual. Read at entry `i`, each contraction is the sum over its
  axis of the operands at `(i 0, k)` and `(k, i 1)`, a broadcast bias is its entry `i 1`, and the zero it is
  compared with is the real `0`: so each `[65536, 512]` array is `ResidualMlp.rows` of the features, weights, biases
  and the flattened residual. The features themselves (the concatenations that hold the gathered cluster statistics)
  are never opened here: they enter only as the array the products read.
-/
import proofs.«117727_j74586402062456_1_alg».proof.Proof.Gen.ReferenceIdeal.Read
import proofs.«117727_j74586402062456_1_alg».proof.Proof.ResidualMlp
import Idealize.ShloMosaic.Lib.ValueIdx
import Idealize.ShloMosaic.PureOps.Ideal.Laws

noncomputable section

namespace Cert.ReferenceIdeal.Rows

open Cert.ReferenceIdeal Cert.ReferenceIdeal.Read Idealize.ShloMosaic Idealize.ShloMosaic.ValueIdx Cert.ResidualMlp

/-! ## The operand indices of the four contractions and of the four broadcast biases, in coordinates -/

theorem lidx30 (r : Fin 65536) (j : Fin 512) (k : Fin 4) : lidx_main_v30 (ix2 r j) k = ix2 r k :=
  funext fun a => Fin.ext (by match a with | ⟨0, _⟩ => rfl | ⟨1, _⟩ => rfl)
theorem ridx30 (r : Fin 65536) (j : Fin 512) (k : Fin 4) : ridx_main_v30 (ix2 r j) k = ix2 k j :=
  funext fun a => Fin.ext (by match a with | ⟨0, _⟩ => rfl | ⟨1, _⟩ => rfl)
theorem lidx35 (r : Fin 65536) (j : Fin 512) (k : Fin 512) : lidx_main_v35 (ix2 r j) k = ix2 r k :=
  funext fun a => Fin.ext (by match a with | ⟨0, _⟩ => rfl | ⟨1, _⟩ => rfl)
theorem ridx35 (r : Fin 65536) (j : Fin 512) (k : Fin 512) : ridx_main_v35 (ix2 r j) k = ix2 k j :=
  funext fun a => Fin.ext (by match a with | ⟨0, _⟩ => rfl | ⟨1, _⟩ => rfl)
theorem lidx53 (r : Fin 65536) (j : Fin 512) (k : Fin 6) : lidx_main_v53 (ix2 r j) k = ix2 r k :=
  funext fun a => Fin.ext (by match a with | ⟨0, _⟩ => rfl | ⟨1, _⟩ => rfl)
theorem ridx53 (r : Fin 65536) (j : Fin 512) (k : Fin 6) : ridx_main_v53 (ix2 r j) k = ix2 k j :=
  funext fun a => Fin.ext (by match a with | ⟨0, _⟩ => rfl | ⟨1, _⟩ => rfl)
theorem lidx58 (r : Fin 65536) (j : Fin 512) (k : Fin 512) : lidx_main_v58 (ix2 r j) k = ix2 r k :=
  funext fun a => Fin.ext (by match a with | ⟨0, _⟩ => rfl | ⟨1, _⟩ => rfl)
theorem ridx58 (r : Fin 65536) (j : Fin 512) (k : Fin 512) : ridx_main_v58 (ix2 r j) k = ix2 k j :=
  funext fun a => Fin.ext (by match a with | ⟨0, _⟩ => rfl | ⟨1, _⟩ => rfl)
theorem bias32 (r : Fin 65536) (j : Fin 512) : idx_main_v31 (idx_main_v32 (ix2 r j)) = ix1 j :=
  funext fun a => Fin.ext (by match a with | ⟨0, _⟩ => rfl)
theorem bias37 (r : Fin 65536) (j : Fin 512) : idx_main_v36 (idx_main_v37 (ix2 r j)) = ix1 j :=
  funext fun a => Fin.ext (by match a with | ⟨0, _⟩ => rfl)
theorem bias55 (r : Fin 65536) (j : Fin 512) : idx_main_v54 (idx_main_v55 (ix2 r j)) = ix1 j :=
  funext fun a => Fin.ext (by match a with | ⟨0, _⟩ => rfl)
theorem bias60 (r : Fin 65536) (j : Fin 512) : idx_main_v59 (idx_main_v60 (ix2 r j)) = ix1 j :=
  funext fun a => Fin.ext (by match a with | ⟨0, _⟩ => rfl)

/-! ## The two arrays -/

/-- The first result before its reshape: the four-column features through the first perceptron, onto the residual. -/
theorem pos_eq (x0 : (⟨S4x16384x3, .f32⟩ : BufTy).Contents (Elt Ideal)) (x1 : (⟨S4x16384x512, .f32⟩ : BufTy).Contents (Elt Ideal)) (x2 : (⟨S4x16384, .i32⟩ : BufTy).Contents (Elt Ideal)) (x3 : (⟨S4x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) :
    val_main_v39 (F := Ideal) x0 x1 x2 x3 x4 x5 x6
      = rows 4 (val_main_v29 (F := Ideal) x0 x2) x3 (fun l => x4 (ix1 l)) x5 (fun j => x6 (ix1 j)) (val_main_v8 (F := Ideal) x1) := by
  funext i
  obtain ⟨r, j, rfl⟩ : ∃ (r : Fin 65536) (j : Fin 512), i = ix2 r j := ⟨i 0, i 1, eq_ix2 i⟩
  rw [val_main_v39_apply, val_main_v38_apply, val_main_v35_apply, val_main_v37_apply, val_main_v36_apply, bias37, rows_apply]
  unfold entry hiddenUnit
  simp only [Ideal.addf_def]
  refine congrArg (val_main_v8 (F := Ideal) x1 (ix2 r j) + ·) (congrArg (· + x6 (ix1 j)) (Finset.sum_congr rfl fun l _ => ?_))
  rw [lidx35, ridx35, val_main_v34_apply, val_main_v33_apply, val_main_v30_apply, val_main_v32_apply, val_main_v31_apply, bias32,
    val_main_call2_v0_apply, val_main_call2_cst_apply]
  simp only [lidx30, ridx30, Ideal.addf_def, Ideal.maximumf_def, Ideal.ofBits_def, Ideal.ofBits_zero_f32]

/-- The second result before its reshape: the six-column features through the second perceptron, onto the same residual. -/
theorem geo_eq (x0 : (⟨S4x16384x3, .f32⟩ : BufTy).Contents (Elt Ideal)) (x1 : (⟨S4x16384x512, .f32⟩ : BufTy).Contents (Elt Ideal)) (x2 : (⟨S4x16384, .i32⟩ : BufTy).Contents (Elt Ideal)) (x7 : (⟨S6x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal)) :
    val_main_v62 (F := Ideal) x0 x1 x2 x7 x8 x9 x10
      = rows 6 (val_main_v52 (F := Ideal) x0 x2) x7 (fun l => x8 (ix1 l)) x9 (fun j => x10 (ix1 j)) (val_main_v8 (F := Ideal) x1) := by
  funext i
  obtain ⟨r, j, rfl⟩ : ∃ (r : Fin 65536) (j : Fin 512), i = ix2 r j := ⟨i 0, i 1, eq_ix2 i⟩
  rw [val_main_v62_apply, val_main_v61_apply, val_main_v58_apply, val_main_v60_apply, val_main_v59_apply, bias60, rows_apply]
  unfold entry hiddenUnit
  simp only [Ideal.addf_def]
  refine congrArg (val_main_v8 (F := Ideal) x1 (ix2 r j) + ·) (congrArg (· + x10 (ix1 j)) (Finset.sum_congr rfl fun l _ => ?_))
  rw [lidx58, ridx58, val_main_v57_apply, val_main_v56_apply, val_main_v53_apply, val_main_v55_apply, val_main_v54_apply, bias55,
    val_main_call3_v0_apply, val_main_call3_cst_apply]
  simp only [lidx53, ridx53, Ideal.addf_def, Ideal.maximumf_def, Ideal.ofBits_def, Ideal.ofBits_zero_f32]

end Cert.ReferenceIdeal.Rows

end
-- ==== Proof.HostGlue.lean ====
/-
  The arrays the kernel's region finds are the reference's own intermediate arrays.

  Before its one region the kernel's program computes, on the host, exactly what the reference computes first: the
  segment ids, the per-cluster counts and centres of gravity (two scatter-adds and a divide), the local coordinates
  (a gather and a subtract), their norm, the cluster means of the local coordinates (a third scatter-add, a divide and
  a second gather) and the two concatenations that make the four- and six-column features; and it flattens the
  residual. These are the same operations on the same operands in the same order, so the arrays are equal as TERMS of
  the arguments: nothing about scatter or gather is used beyond that both sides apply the same function. The four
  biases reach the region reshaped from `[512]` to `[1, 512]`, whose entry `(0, l)` is entry `l` of the argument.

  With the reference's two arrays read as `ResidualMlp.rows` (the module on the reference's rows) this carries the
  kernel's two results onto the reference's two result terms of the kernel's own arguments.
-/
import proofs.«117727_j74586402062456_1_alg».proof.Proof.Gen.KernelIdeal.Frame
import proofs.«117727_j74586402062456_1_alg».proof.Proof.Gen.ReferenceIdeal.Read
import proofs.«117727_j74586402062456_1_alg».proof.Proof.ResidualMlp
import proofs.«117727_j74586402062456_1_alg».proof.Proof.ReferenceRows
import Idealize.ShloMosaic.Lib.StableHlo.Run
import Idealize.ShloMosaic.Lib.ValueIdx
import Idealize.ShloMosaic.Lib.ValueLayout

noncomputable section

namespace Cert.KernelIdeal.Glue

open Cert.KernelIdeal Cert.KernelIdeal.Gen Idealize.ShloMosaic Idealize.ShloMosaic.TcCoe Idealize.SL.Sem Idealize.ShloMosaic.ValueIdx Cert.ResidualMlp

variable (m : (ℓ : Loc nD τ sig) → Buf (Elt Ideal) ℓ)

set_option maxRecDepth 8192 in
set_option maxHeartbeats 8000000 in
/-- The four-column features (local coordinates and their norm) as the region finds them. -/
theorem features4_eq (c : Dev nD) :
    (V m c main_v29 : S65536x4.Idx → EReal) = Cert.ReferenceIdeal.Read.val_main_v29 (F := Ideal) (m ((c : Thread nD τ).loc main_arg0)) (m ((c : Thread nD τ).loc main_arg2)) := by
  dsimp only [V, V0]
  simp only [hostOps0, hostOps0_1, hostOps0_2, hostOps0_3, hostOps0_4, List.flatten_cons, List.flatten_nil, List.append_nil, List.cons_append, List.nil_append]
  after_results_simp
  rfl

set_option maxRecDepth 8192 in
set_option maxHeartbeats 8000000 in
/-- The six-column features (cluster mean offset and local coordinates) as the region finds them. -/
theorem features6_eq (c : Dev nD) :
    (V m c main_v42 : S65536x6.Idx → EReal) = Cert.ReferenceIdeal.Read.val_main_v52 (F := Ideal) (m ((c : Thread nD τ).loc main_arg0)) (m ((c : Thread nD τ).loc main_arg2)) := by
  dsimp only [V, V0]
  simp only [hostOps0, hostOps0_1, hostOps0_2, hostOps0_3, hostOps0_4, List.flatten_cons, List.flatten_nil, List.append_nil, List.cons_append, List.nil_append]
  after_results_simp
  rfl

/-- The flattened residual as the region finds it. -/
theorem residual_eq (c : Dev nD) :
    (V m c main_v8 : S65536x512.Idx → EReal) = Cert.ReferenceIdeal.Read.val_main_v8 (F := Ideal) (m ((c : Thread nD τ).loc main_arg1)) := by
  dsimp only [V, V0]
  simp only [hostOps0, hostOps0_1, hostOps0_2, hostOps0_3, hostOps0_4, List.flatten_cons, List.flatten_nil, List.append_nil, List.cons_append, List.nil_append]
  after_results
  rfl

/-! ## The four reshaped biases at an entry -/

theorem bias43 (c : Dev nD) (l : Fin 512) : V m c main_v43 (ix2 (0 : Fin 1) l) = (m ((c : Thread nD τ).loc main_arg4)) (ix1 l) := by
  have e : (V m c main_v43 : S1x512.Idx → EReal) = shapeCast S1x512 (m ((c : Thread nD τ).loc main_arg4)) shapeCasts_S512_S1x512 := by
    dsimp only [V, V0]
    simp only [hostOps0, hostOps0_1, hostOps0_2, hostOps0_3, hostOps0_4, List.flatten_cons, List.flatten_nil, List.append_nil, List.cons_append, List.nil_append]
    after_results
    rfl
  rw [e]
  exact shapeCast_a_1a_apply _ _ 0 l

theorem bias44 (c : Dev nD) (l : Fin 512) : V m c main_v44 (ix2 (0 : Fin 1) l) = (m ((c : Thread nD τ).loc main_arg6)) (ix1 l) := by
  have e : (V m c main_v44 : S1x512.Idx → EReal) = shapeCast S1x512 (m ((c : Thread nD τ).loc main_arg6)) shapeCasts_S512_S1x512 := by
    dsimp only [V, V0]
    simp only [hostOps0, hostOps0_1, hostOps0_2, hostOps0_3, hostOps0_4, List.flatten_cons, List.flatten_nil, List.append_nil, List.cons_append, List.nil_append]
    after_results
    rfl
  rw [e]
  exact shapeCast_a_1a_apply _ _ 0 l

theorem bias45 (c : Dev nD) (l : Fin 512) : V m c main_v45 (ix2 (0 : Fin 1) l) = (m ((c : Thread nD τ).loc main_arg8)) (ix1 l) := by
  have e : (V m c main_v45 : S1x512.Idx → EReal) = shapeCast S1x512 (m ((c : Thread nD τ).loc main_arg8)) shapeCasts_S512_S1x512 := by
    dsimp only [V, V0]
    simp only [hostOps0, hostOps0_1, hostOps0_2, hostOps0_3, hostOps0_4, List.flatten_cons, List.flatten_nil, List.append_nil, List.cons_append, List.nil_append]
    after_results
    rfl
  rw [e]
  exact shapeCast_a_1a_apply _ _ 0 l

theorem bias46 (c : Dev nD) (l : Fin 512) : V m c main_v46 (ix2 (0 : Fin 1) l) = (m ((c : Thread nD τ).loc main_arg10)) (ix1 l) := by
  have e : (V m c main_v46 : S1x512.Idx → EReal) = shapeCast S1x512 (m ((c : Thread nD τ).loc main_arg10)) shapeCasts_S512_S1x512 := by
    dsimp only [V, V0]
    simp only [hostOps0, hostOps0_1, hostOps0_2, hostOps0_3, hostOps0_4, List.flatten_cons, List.flatten_nil, List.append_nil, List.cons_append, List.nil_append]
    after_results
    rfl
  rw [e]
  exact shapeCast_a_1a_apply _ _ 0 l

/-! ## The kernel's two results are the reference's result terms of the kernel's arguments -/

theorem pos_result (c : Dev nD) :
    shapeCast S4x16384x512 (rows 4 (V m c main_v29) (V m c main_arg3) (fun l => V m c main_v43 (ix2 (0 : Fin 1) l)) (V m c main_arg5) (fun j => V m c main_v44 (ix2 (0 : Fin 1) j)) (V m c main_v8)) shapeCasts_S65536x512_S4x16384x512
      = Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e1 : (fun l : Fin 512 => V m c main_v43 (ix2 (0 : Fin 1) l)) = fun l => (m ((c : Thread nD τ).loc main_arg4)) (ix1 l) := funext (bias43 m c)
  have e2 : (fun j : Fin 512 => V m c main_v44 (ix2 (0 : Fin 1) j)) = fun j => (m ((c : Thread nD τ).loc main_arg6)) (ix1 j) := funext (bias44 m c)
  unfold Cert.ReferenceIdeal.Read.val_main_v63
  rw [Cert.ReferenceIdeal.Rows.pos_eq, features4_eq, residual_eq, V_main_arg3, V_main_arg5, e1, e2]

theorem geo_result (c : Dev nD) :
    shapeCast S4x16384x512 (rows 6 (V m c main_v42) (V m c main_arg7) (fun l => V m c main_v45 (ix2 (0 : Fin 1) l)) (V m c main_arg9) (fun j => V m c main_v46 (ix2 (0 : Fin 1) j)) (V m c main_v8)) shapeCasts_S65536x512_S4x16384x512
      = Cert.ReferenceIdeal.Read.val_main_v64 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) := by
  have e1 : (fun l : Fin 512 => V m c main_v45 (ix2 (0 : Fin 1) l)) = fun l => (m ((c : Thread nD τ).loc main_arg8)) (ix1 l) := funext (bias45 m c)
  have e2 : (fun j : Fin 512 => V m c main_v46 (ix2 (0 : Fin 1) j)) = fun j => (m ((c : Thread nD τ).loc main_arg10)) (ix1 j) := funext (bias46 m c)
  unfold Cert.ReferenceIdeal.Read.val_main_v64
  rw [Cert.ReferenceIdeal.Rows.geo_eq, features6_eq, residual_eq, V_main_arg7, V_main_arg9, e1, e2]

end Cert.KernelIdeal.Glue

end
-- ==== Proof.lean ====
/-
  The certificate of a kernel that, for 65536 points in 8192 clusters, feeds each point's local coordinates through
  two small perceptrons and adds each result to the point's 512 residual features.

  Both programs first compute, on the host and by the same operations, every point's coordinates relative to its
  cluster's centre of gravity, their norm, and the cluster's mean of those local coordinates, and join them into a
  four-column and a six-column feature array. The reference then evaluates

      residual + ( max (features · W + b, 0) · W' + b' )

  once for each pair of weights over all 65536 rows; the kernel evaluates the same expression over 64 blocks of 1024
  rows, its two products on operands narrowed to bf16 — the identity on the extended reals — and into a zero accumulator,
  and writes each block back to its rows of the two outputs, which the program then reshapes to `[4, 16384, 512]`.

  * The three frames: the two kernel programs run, fault-free and with their arguments unchanged, by their generated
    frame runs; the reference by its generated run with the two results dropped.
  * The idealization rewrote no operation, so there is nothing to preserve.
  * Equal results: entry by entry each output block is `ResidualMlp.entry` of its row of the feature block
    (Proof/KernelRow.lean); a block's entry is the array's entry 1024 rows per point further on, the blocks tile the
    outputs, and the tail only reshapes (Proof/KernelArrays.lean); the reference's two arrays are the same function of
    the same arrays (Proof/ReferenceRows.lean); and the arrays the kernel's region finds are the reference's own
    intermediate arrays of the same arguments (Proof/HostGlue.lean). No sum is regrouped and nothing is distributed, so
    the equality holds on all extended reals and the precondition is never opened.
-/
import proofs.«117727_j74586402062456_1_alg».proof.Defs
import proofs.«117727_j74586402062456_1_alg».proof.Proof.Gen.Kernel
import proofs.«117727_j74586402062456_1_alg».proof.Proof.Gen.Kernel.Skeleton
import proofs.«117727_j74586402062456_1_alg».proof.Proof.Gen.Kernel.Launch
import proofs.«117727_j74586402062456_1_alg».proof.Proof.Gen.Kernel.Points
import proofs.«117727_j74586402062456_1_alg».proof.Proof.Gen.Kernel.Frame
import proofs.«117727_j74586402062456_1_alg».proof.Proof.Gen.KernelIdeal
import proofs.«117727_j74586402062456_1_alg».proof.Proof.Gen.KernelIdeal.Skeleton
import proofs.«117727_j74586402062456_1_alg».proof.Proof.Gen.KernelIdeal.Launch
import proofs.«117727_j74586402062456_1_alg».proof.Proof.Gen.KernelIdeal.Points
import proofs.«117727_j74586402062456_1_alg».proof.Proof.Gen.KernelIdeal.Frame
import proofs.«117727_j74586402062456_1_alg».proof.Proof.Gen.ReferenceIdeal
import proofs.«117727_j74586402062456_1_alg».proof.Proof.Gen.ReferenceIdeal.Run
import proofs.«117727_j74586402062456_1_alg».proof.Proof.Gen.ReferenceIdeal.Read
import proofs.«117727_j74586402062456_1_alg».proof.Proof.Gen.Pre_finite_inputs
import proofs.«117727_j74586402062456_1_alg».proof.Proof.KernelArrays
import proofs.«117727_j74586402062456_1_alg».proof.Proof.HostGlue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both runs end with each result at ONE term of the kernel's argument arrays — the reference's own result stage —:
    the kernel's by its run and the host-glue equations, the reference's by its run at arguments that agree. -/
theorem algebraic : Cert.algebraic_KernelIdeal_ReferenceIdeal := by
  intro m ρ m' ρ' _ hagree
  refine ⟨fun c => Cert.ReferenceIdeal.Read.val_main_v63 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v64 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun _ h c =>
      ⟨(h c).1.trans (Cert.KernelIdeal.Glue.pos_result m c), (h c).2.1.trans (Cert.KernelIdeal.Glue.geo_result m c), (h c).2.2⟩)
      (Cert.KernelIdeal.Arrays.run m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨h0, h1, h2, h3, h4, h5, h6, h7, h8, h9, h10⟩ := hagree c
      rw [Cert.ReferenceIdeal.Read.val_main_v63_eq, h0, h1, h2, h3, h4, h5, h6]
    · obtain ⟨h0, h1, h2, h3, h4, h5, h6, h7, h8, h9, h10⟩ := hagree c
      rw [Cert.ReferenceIdeal.Read.val_main_v64_eq, h0, h1, h2, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
